-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x32 .f32) (main_arg3 : FVec F S32x32 .f32) (main_arg4 : FVec F S32x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S32x64 : Shape := ⟨2, ![32, 64]⟩
abbrev S10000x64 : Shape := ⟨2, ![10000, 64]⟩
abbrev S400x10000 : Shape := ⟨2, ![400, 10000]⟩
abbrev S400x64 : Shape := ⟨2, ![400, 64]⟩
abbrev S10000x32 : Shape := ⟨2, ![10000, 32]⟩
abbrev S400x32 : Shape := ⟨2, ![400, 32]⟩

abbrev nBuf : Space → Nat
  | .hbm => 10
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x32, .f32⟩
  | .hbm, ⟨4, _⟩ => ⟨S32x32, .f32⟩
  | .hbm, ⟨5, _⟩ => ⟨S32x64, .f32⟩
  | .hbm, ⟨6, _⟩ => ⟨S10000x64, .f32⟩
  | .hbm, ⟨7, _⟩ => ⟨S10000x32, .f32⟩
  | .hbm, ⟨8, _⟩ => ⟨S10000x32, .f32⟩
  | .hbm, ⟨9, _⟩ => ⟨S10000x10000, .f32⟩
  | .local _ .vmem, ⟨0, _⟩ => ⟨S10000x128, .f32⟩
  | .local _ .vmem, ⟨1, _⟩ => ⟨S128x32, .f32⟩
  | .local _ .vmem, ⟨2, _⟩ => ⟨S32x64, .f32⟩
  | .local _ .vmem, ⟨3, _⟩ => ⟨S400x10000, .f32⟩
  | .local _ .vmem, ⟨4, _⟩ => ⟨S400x10000, .f32⟩
  | .local _ .vmem, ⟨5, _⟩ => ⟨S400x64, .f32⟩
  | .local _ .vmem, ⟨6, _⟩ => ⟨S400x64, .f32⟩
  | .local _ .vmem, ⟨7, _⟩ => ⟨S10000x32, .f32⟩
  | .local _ .vmem, ⟨8, _⟩ => ⟨S10000x64, .f32⟩
  | .local _ .vmem, ⟨9, _⟩ => ⟨S400x32, .f32⟩
  | .local _ .vmem, ⟨10, _⟩ => ⟨S400x32, .f32⟩
  | .local _ .vmem, ⟨11, _⟩ => ⟨S10000x32, .f32⟩
  | .local _ .vmem, ⟨12, _⟩ => ⟨S400x10000, .f32⟩
  | .local _ .vmem, ⟨13, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32_1 : BitVec 32 := 25#32
  let v5 : BitVec 1 := Scalar.cmpi .slt arg0 c25_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v1 : BitVec 32 := Scalar.muli v0 c400_i32
  let v19 : Index := Scalar.indexCast v1
  let c0_12 : Index := 0#32
  ![v19.toNat, 0]
def k0_cond3 (i : grid0.Coords) : BitVec 1 :=
  let arg0 : BitVec 32 := BitVec.ofNat 32 (i 0).val
  let c25_i32_3 : BitVec 32 := 25#32
  let v8 : BitVec 1 := Scalar.cmpi .sge arg0 c25_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c25_i32 : BitVec 32 := 25#32
  let v0 : BitVec 32 := Scalar.remsi arg0 c25_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let c24_i32 : BitVec 32 := 24#32
  let v1 : BitVec 32 := Scalar.maxsi c0_i32 v0
  let v2 : BitVec 32 := Scalar.minsi c24_i32 v1
  let c0_i32_0 : BitVec 32 := 0#32
  let c0_i32_1 : BitVec 32 := 0#32
  ![v2.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S32x32_S32x32_S32x64_d1 : Shape.Concatenates [S32x32, S32x32] S32x64 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S400x64_S400x64_0_0 : ∀ a, (![0, 0] : Fin 2 → Nat) a + S400x64.size a ≤ S400x64.size a
  slices_S10000x64_S10000x32_0_0 : S10000x64.Slices ![0, 0] S10000x32
  slices_S10000x64_S10000x32_0_32 : S10000x64.Slices ![0, 32] S10000x32
  inb_S400x32_S400x32_0_0 : ∀ a, (![0, 0] : Fin 2 → Nat) a + S400x32.size a ≤ S400x32.size a
  h_S400x32 : 0 < S400x32.numel
  shapeCasts_S400x32_S400x32 : S400x32.ShapeCasts S400x32
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x64_S400x64_1_0_0_1_n_n_wf : DotDims.WF S400x32 S32x64 S400x64 [1] [0] [0] [1] [] []
  dot_S400x10000_S10000x64_S400x64_1_0_0_1_n_n_wf : DotDims.WF S400x10000 S10000x64 S400x64 [1] [0] [0] [1] [] []
  dot_S400x32_S10000x32_S400x10000_1_1_0_0_n_n_wf : DotDims.WF S400x32 S10000x32 S400x10000 [1] [1] [0] [0] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x32.size a ≤ S10000x32.size a
  hwx1_0 : ∀ i : grid1.Coords, EltTy.bits .f32 = 32 ∨ (Rect.block (s := S10000x32) S400x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .f32 = 32 ∨ (Rect.block (s := S10000x10000) S400x10000.size (cc1_transform_2 i) (hinb1_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x64_S400x64_1_0_0_1_n_n : DotDims S400x32 S32x64 S400x64 where
  lhsContracting := [1]
  rhsContracting := [0]
  lhsNonContracting := [0]
  rhsNonContracting := [1]
  lhsBatch := []
  rhsBatch := []
  wf := dot_S400x32_S32x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x32_S10000x32_S400x10000_1_1_0_0_n_n : DotDims S400x32 S10000x32 S400x10000 where
  lhsContracting := [1]
  rhsContracting := [1]
  lhsNonContracting := [0]
  rhsNonContracting := [0]
  lhsBatch := []
  rhsBatch := []
  wf := dot_S400x32_S10000x32_S400x10000_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

abbrev win1_0 : Pipeline.Window sig grid1 :=
  Pipeline.Window.ofSpec (Memref.whole main_v2) S400x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S400x10000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S10000x32 : Shape := ⟨2, ![10000, 32]⟩
abbrev S_ : Shape := ⟨0, ![]⟩
abbrev S32x10000 : Shape := ⟨2, ![32, 10000]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x32, .f32⟩
  | .hbm, ⟨4, _⟩ => ⟨S32x32, .f32⟩
  | .hbm, ⟨5, _⟩ => ⟨S10000x32, .f32⟩
  | .hbm, ⟨6, _⟩ => ⟨S10000x32, .f32⟩
  | .hbm, ⟨7, _⟩ => ⟨S_, .f32⟩
  | .hbm, ⟨8, _⟩ => ⟨S10000x32, .f32⟩
  | .hbm, ⟨9, _⟩ => ⟨S10000x32, .f32⟩
  | .hbm, ⟨10, _⟩ => ⟨S10000x32, .f32⟩
  | .hbm, ⟨11, _⟩ => ⟨S10000x32, .f32⟩
  | .hbm, ⟨12, _⟩ => ⟨S10000x32, .f32⟩
  | .hbm, ⟨13, _⟩ => ⟨S10000x32, .f32⟩
  | .hbm, ⟨14, _⟩ => ⟨S32x10000, .f32⟩
  | .hbm, ⟨15, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x32_S32x10000_1_0 : S10000x32.Transposes [1, 0] S32x10000
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.Bits.Data.lean ====
/-
  What each pipeline's buffers hold, point by point, for the two kernels of the graph autoencoder.

  FIRST KERNEL, 50 grid points. The whole feature matrix X, both weight windows and a 400-row panel of the
  adjacency A (panel t mod 25) are staged; two scratch buffers live across the points:
    * the projection scratch holds P = X W1 from the first point on;
    * the mixing scratch is filled panel by panel: after point t < 25 its rows below 400 (t + 1) hold
      H [W2|W3] (row r is row r mod 400 of panel r div 400, each panel computed from A's panel and P);
      from point 25 on it holds all of H [W2|W3];
    * at point t ≥ 25 the output panel t - 25 is A's panel times the mixing scratch; before that the
      output's staging buffer is left as found (and is not written back).
  SECOND KERNEL, 25 grid points: a 400-row panel of mu and all of mu are staged (two windows on ONE array,
  which they hold at its two half shares); the output panel is the panel times mu transposed.
  Everything here is stated for any float instance: at the word level it is the frame's proof data, at the
  ideal instance the value legs read it.
-/
import proofs.«161115_g32409823216073_cont_9to1_1175_24_alg».proof.Proof.Gen.Kernel.Launch
import proofs.«161115_g32409823216073_cont_9to1_1175_24_alg».proof.Proof.Gen.Kernel.Skeleton
import proofs.«161115_g32409823216073_cont_9to1_1175_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## First kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev pt0 : Fin cfg0.N := ⟨0, by rw [show cfg0.N = 50 from N_0]; omega⟩

/-- The two scratch buffers, as memrefs. -/
abbrev sc0 : Memref sig .tc .vmem S10000x32 .f32 := Memref.whole cc0_scratch0
abbrev sc1 : Memref sig .tc .vmem S10000x64 .f32 := Memref.whole cc0_scratch1

/-- P = X W1, as the first point computes it from the two resident windows. -/
def proj0 (c : Dev nD) : Vec F S10000x32 .f32 := k0_pay1 (iblk0 V c 0 pt0) (iblk0 V c 1 pt0)

/-- Panel `t` of H [W2|W3]: from A's panel at `t`, P, and the joined weights. -/
def mixBlk (c : Dev nD) (t : Fin cfg0.N) : Vec F S400x64 .f32 := k0_pay2 (iblk0 V c 3 t) (proj0 V c) (iblk0 V c 2 t)

theorem row_div_lt (y : S10000x64.Idx) : (y 0).val / 400 < cfg0.N := by
  have h : (y 0).val < 10000 := (y 0).isLt
  rw [show cfg0.N = 50 from N_0]; omega

theorem row_mod_lt (y : S10000x64.Idx) : (y 0).val % 400 < 400 := Nat.mod_lt _ (by decide)

/-- H [W2|W3] whole: row r is row r mod 400 of panel r div 400. -/
def mix (c : Dev nD) : Vec F S10000x64 .f32 := fun y =>
  mixBlk V c ⟨(y 0).val / 400, row_div_lt y⟩ (ValueIdx.ix2 (n0 := 400) (n1 := 64) ⟨(y 0).val % 400, row_mod_lt y⟩ (y 1))

/-- The second kernel's staging buffers, which the first kernel never touches: each at some contents. -/
def rest1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the mixing scratch is known to hold before point `n`: H [W2|W3] on the rows already stored. -/
def MixUpTo (c : Dev nD) (n : ℕ) (f : Vec F S10000x64 .f32) : Prop :=
  ∀ y : S10000x64.Idx, (y 0).val < 400 * min n 25 → f y = mix V c y

/-- The region invariant before point `n`: at the first point every scoped buffer no window stages at
    anything; afterwards the projection scratch at P, the mixing scratch at contents that agree with
    H [W2|W3] on the rows stored so far, the second kernel's staging buffers at anything. -/
def PhiS (c : Dev nD) : ℕ → sProp 𝕄
  | 0 => Pipeline.ΦA spec0 c
  | n + 1 => iprop((owns (c : Thread nD τ) sc0 fullShare (proj0 V c)
      ∗ (∃ f : Vec F S10000x64 .f32, iprop(owns (c : Thread nD τ) sc1 fullShare f ∗ ⌜MixUpTo V c (n + 1) f⌝))
      ∗ rest1 c) ∗ (∃ r, prngReg c r))

/-- The class invariant with the scratch operands as memrefs. -/
theorem PhiA0_eq (c : Dev nD) :
    (Pipeline.ΦA spec0 c : sProp 𝕄)
      = iprop(((∃ d, owns (c : Thread nD τ) sc0 fullShare d) ∗ (∃ d, owns (c : Thread nD τ) sc1 fullShare d) ∗ rest1 c) ∗ (∃ r, prngReg c r)) := by
  unfold Pipeline.ΦA rest1; rw [scopedRest0_eq]; simp only [sc0, sc1, owns_whole]; try rfl

/-- The first kernel's proof data at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 3 t) (mix V c)
  Φ t := PhiS V c t.val
  q _ := fullShare
  owed _ := 0

/-! ## Second kernel -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's proof data at entry contents `V`: the two input windows hold their one array at its
    two half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

end Cert.Kernel.Hand

end
-- ==== Proof.Bits.Body0.lean ====
/-
  The first kernel's body at one grid point, in its three control cases.

  The body branches three times on the grid coordinate t:
    * if t = 0, the projection P = X W1 is stored over the whole projection scratch;
    * if t < 25, the 400 rows of the mixing scratch starting at row 400 (t mod 25) receive
      relu(A_panel P) [W2|W3], where P is what the projection scratch holds at that moment;
    * if t ≥ 25, the output's staging block receives A_panel times the whole mixing scratch.
  Over the 50 points only three combinations of the conditions occur: t = 0 (first and second branch),
  0 < t < 25 (second branch alone), t ≥ 25 (third branch alone). For each there is a triple: from the
  buffers the case touches, owned at named contents, the body runs to any continuation that accepts the
  same buffers with the stored block written. At t = 0 the second product reads the projection scratch
  back after the store; the store covered the whole buffer, so what is read is P itself.
  Everything is stated for any float instance.
-/
import proofs.«161115_g32409823216073_cont_9to1_1175_24_alg».proof.Proof.Bits.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three branch conditions over the grid -/

/-- The first branch's condition on the grid coordinate: t = 0, as the body's integer chain computes it. -/
abbrev cond1 (i : grid0.Coords) : Prop := (Scalar.cmpi .ne (Scalar.extui (Scalar.cmpi .eq (BitVec.ofNat 32 (i 0).val) 0#32)) 0#32) = 1#1
/-- The second branch's condition: t < 25. -/
abbrev cond2 (i : grid0.Coords) : Prop := k0_cond2 i = 1#1
/-- The third branch's condition: t ≥ 25. -/
abbrev cond3 (i : grid0.Coords) : Prop := k0_cond3 i = 1#1

/-- The first condition holds at the first point only. -/
theorem hcond1 : ∀ t : Fin cfg0.N, cond1 (grid0.coords t) ↔ t.val = 0 :=
  (by decide +kernel : ∀ t : Fin grid0.N, cond1 (grid0.coords t) ↔ t.val = 0)
/-- The second holds on the first 25 points. -/
theorem hcond2 : ∀ t : Fin cfg0.N, cond2 (grid0.coords t) ↔ t.val < 25 :=
  (by decide +kernel : ∀ t : Fin grid0.N, cond2 (grid0.coords t) ↔ t.val < 25)
/-- The third holds on the last 25 points. -/
theorem hcond3 : ∀ t : Fin cfg0.N, cond3 (grid0.coords t) ↔ 25 ≤ t.val :=
  (by decide +kernel : ∀ t : Fin grid0.N, cond3 (grid0.coords t) ↔ 25 ≤ t.val)
/-- The row offset of the mixing scratch's panel at point t: 400 (t mod 25), column offset 0. -/
theorem hoff1 : ∀ t : Fin cfg0.N, k0_off1 (grid0.coords t) = ![400 * (t.val % 25), 0] :=
  (by decide +kernel : ∀ t : Fin grid0.N, k0_off1 (grid0.coords t) = ![400 * (t.val % 25), 0])

/-- The rectangle of the mixing scratch the second branch stores into: 400 rows by 64 columns at that offset. -/
abbrev mixRect (i : grid0.Coords) (h : cond2 i) : Rect S10000x64 :=
  Rect.unit (s := S10000x64) (k0_off1 i) S400x64.size (Facts₀.k0_off1_inb i h)

/-! ## Reading back a whole-buffer access -/

/-- The two-axis zero offsets, however spelt, are the constant zero. -/
theorem zero2 : (![0, 0] : Fin 2 → ℕ) = fun _ => 0 := by funext a; fin_cases a <;> rfl

/-- One store through the whole-shape rectangle leaves its payload, whatever the buffer held. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

/-- A load through the whole-shape rectangle of a whole buffer reads its contents. -/
theorem load_whole {κ : Kind} {sp : Space} {S : Shape} {e : EltTy} {m : Memref sig κ sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 1000000 in
/-- The first point (t = 0): the projection scratch, at anything, receives P = X W1; the panel of the mixing
    scratch receives relu(A_panel P) [W2|W3] with that same P, read back from the scratch just stored. The
    feature matrix, the weights and A's panel are read and kept. -/
theorem run0_A (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S32x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x32 .f32) (harg6 : arg6.IsWhole) (arg7 : Memref sig .tc .vmem S10000x64 .f32) (harg7 : arg7.IsWhole)
    (hc1 : cond1 i) (hc2 : cond2 i) (hc3 : ¬cond3 i)
    (x : Vec F S10000x128 .f32) (w1 : Vec F S128x32 .f32) (wc : Vec F S32x64 .f32) (a : Vec F S400x10000 .f32)
    (f7 : arg7.view.ty.Contents (Elt F)) (E : Set ℕ) (K : PUnit → sProp 𝕄) :
    iprop(owns (c : Thread nD τ) arg1 fullShare x ∗ owns (c : Thread nD τ) arg2 fullShare w1 ∗ owns (c : Thread nD τ) arg3 fullShare wc
        ∗ owns (c : Thread nD τ) arg4 fullShare a ∗ (∃ d, owns (c : Thread nD τ) arg6 fullShare d)
        ∗ (arg7.view.loc (c : Thread nD τ) ↦[arg7.view.set]{fullShare} f7)
        ∗ (iprop(owns (c : Thread nD τ) arg1 fullShare x ∗ owns (c : Thread nD τ) arg2 fullShare w1 ∗ owns (c : Thread nD τ) arg3 fullShare wc
              ∗ owns (c : Thread nD τ) arg4 fullShare a ∗ owns (c : Thread nD τ) arg6 fullShare (k0_pay1 x w1)
              ∗ (arg7.view.loc (c : Thread nD τ) ↦[arg7.view.set]{fullShare} arg7.view.writes (Elt F) f7 [⟨mixRect i hc2, k0_pay2 a (k0_pay1 x w1) wc⟩])) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d6, %f6, -, H6⟩, H7, Hk⟩
  obtain rfl := harg1.eq_unread hf1; obtain rfl := harg2.eq_unread hf2; obtain rfl := harg3.eq_unread hf3; obtain rfl := harg4.eq_unread hf4
  sl_exec (disch := first | exact hc1 | exact hc2 | exact hc3)
  sl_step
  iapply Hk
  sl_unfold_run_names
  rw [load_whole harg1 zero2, load_whole harg2 zero2, load_whole harg3 zero2, load_whole harg4 zero2,
    View.readCov_unit_zero (S := S10000x32) _ zero2]
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    exact read_store_whole _ _ zero2 _ _
  iexact H7

set_option maxHeartbeats 1000000 in
/-- A point 0 < t < 25: the projection scratch holds some H, which is read and kept; the panel of the mixing
    scratch receives relu(A_panel H) [W2|W3]. The joined weights and A's panel are read and kept. -/
theorem run0_B (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S32x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x32 .f32) (harg6 : arg6.IsWhole) (arg7 : Memref sig .tc .vmem S10000x64 .f32) (harg7 : arg7.IsWhole)
    (hc1 : ¬cond1 i) (hc2 : cond2 i) (hc3 : ¬cond3 i)
    (wc : Vec F S32x64 .f32) (a : Vec F S400x10000 .f32) (h : Vec F S10000x32 .f32) (f7 : arg7.view.ty.Contents (Elt F)) (E : Set ℕ) (K : PUnit → sProp 𝕄) :
    iprop(owns (c : Thread nD τ) arg3 fullShare wc ∗ owns (c : Thread nD τ) arg4 fullShare a ∗ owns (c : Thread nD τ) arg6 fullShare h
        ∗ (arg7.view.loc (c : Thread nD τ) ↦[arg7.view.set]{fullShare} f7)
        ∗ (iprop(owns (c : Thread nD τ) arg3 fullShare wc ∗ owns (c : Thread nD τ) arg4 fullShare a ∗ owns (c : Thread nD τ) arg6 fullShare h
              ∗ (arg7.view.loc (c : Thread nD τ) ↦[arg7.view.set]{fullShare} arg7.view.writes (Elt F) f7 [⟨mixRect i hc2, k0_pay2 a h wc⟩])) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f3, %hf3, H3⟩, ⟨%f4, %hf4, H4⟩, ⟨%f6, %hf6, H6⟩, H7, Hk⟩
  obtain rfl := harg3.eq_unread hf3; obtain rfl := harg4.eq_unread hf4; obtain rfl := harg6.eq_unread hf6
  sl_exec (disch := first | exact hc1 | exact hc2 | exact hc3)
  sl_step
  iapply Hk
  rw [load_whole harg4 zero2, load_whole harg6 zero2, load_whole harg3 zero2]
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexact H7

set_option maxHeartbeats 1000000 in
/-- A point t ≥ 25: the output's staging block, at anything, receives A_panel G, where G is the whole
    mixing scratch; A's panel and the mixing scratch are read and kept. -/
theorem run0_C (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S32x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x32 .f32) (harg6 : arg6.IsWhole) (arg7 : Memref sig .tc .vmem S10000x64 .f32) (harg7 : arg7.IsWhole)
    (hc1 : ¬cond1 i) (hc2 : ¬cond2 i) (hc3 : cond3 i)
    (a : Vec F S400x10000 .f32) (g : Vec F S10000x64 .f32) (E : Set ℕ) (K : PUnit → sProp 𝕄) :
    iprop(owns (c : Thread nD τ) arg4 fullShare a ∗ owns (c : Thread nD τ) arg7 fullShare g ∗ (∃ d, owns (c : Thread nD τ) arg5 fullShare d)
        ∗ (iprop(owns (c : Thread nD τ) arg4 fullShare a ∗ owns (c : Thread nD τ) arg7 fullShare g ∗ owns (c : Thread nD τ) arg5 fullShare (k0_pay3 a g)) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f4, %hf4, H4⟩, ⟨%f7, %hf7, H7⟩, ⟨%d5, %f5, -, H5⟩, Hk⟩
  obtain rfl := harg4.eq_unread hf4; obtain rfl := harg7.eq_unread hf7
  sl_exec (disch := first | exact hc1 | exact hc2 | exact hc3)
  sl_step
  iapply Hk
  isplitl [H4]
  · iexists _; isplitr; · ipureintro; exact harg4.read_unread _
    iexact H4
  isplitl [H7]
  · iexists _; isplitr; · ipureintro; exact harg7.read_unread _
    iexact H7
  iexists _; isplitr
  swap; · iexact H5
  ipureintro
  refine (read_store_whole _ _ zero2 _ _).trans ?_
  rw [load_whole harg4 zero2, load_whole harg7 zero2]

end Cert.Kernel.Hand

end
-- ==== Proof.Bits.MixStep.lean ====
/-
  Two facts about the mixing scratch of the first kernel, seen as a plain array of 10000 rows and 64 columns
  that is filled 400 rows at a time.

  The scratch is described by "it agrees with the whole array H [W2|W3] on every row below 400 * min n 25".
  Storing panel t (rows 400 t .. 400 t + 399, every column) on top of contents that satisfy this for n = t
  gives contents that satisfy it for n = t + 1: a row below 400 t is untouched by the store and is covered by
  the hypothesis; a row r with 400 t ≤ r < 400 (t + 1) reads the stored panel at row r - 400 t, and since
  r / 400 = t and r % 400 = r - 400 t this is by definition the whole array's entry at row r.
  Once n ≥ 25 the bound 400 * 25 = 10000 is the number of rows, so the description says the contents are
  the whole array.
-/
import proofs.«161115_g32409823216073_cont_9to1_1175_24_alg».proof.Proof.Bits.Data
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-- The whole array at a row of panel `t`: row `400 t + i`, column `j` is the panel's entry `(i, j)`. -/
theorem mix_at_panel (c : Dev nD) (t : Fin cfg0.N) (y : S10000x64.Idx) (i : Fin 400) (j : Fin 64)
    (h0 : (y 0).val = 400 * t.val + i.val) (h1 : (y 1).val = j.val) :
    mix V c y = mixBlk V c t (ValueIdx.ix2 i j) := by
  have hi : i.val < 400 := i.isLt
  have hd : (y 0).val / 400 = t.val := by rw [h0]; omega
  have hm : (y 0).val % 400 = i.val := by rw [h0]; omega
  have e1 : (⟨(y 0).val / 400, row_div_lt y⟩ : Fin cfg0.N) = t := Fin.ext hd
  have e2 : (⟨(y 0).val % 400, row_mod_lt y⟩ : Fin 400) = i := Fin.ext hm
  have e3 : (y 1 : Fin 64) = j := Fin.ext h1
  show mixBlk V c ⟨(y 0).val / 400, row_div_lt y⟩
      (ValueIdx.ix2 (n0 := 400) (n1 := 64) ⟨(y 0).val % 400, row_mod_lt y⟩ (y 1)) = _
  rw [e1, e2, e3]

/-- Storing panel t (rows 400 t .. 400 t + 399, all 64 columns) on top of contents that agree with the whole array below row 400 t gives contents that agree below row 400 (t + 1). -/
theorem mixUpTo_step (c : Dev nD) (t : Fin cfg0.N) (ht : t.val < 25) (off : Fin 2 → ℕ) (hoff : off = ![400 * t.val, 0])
    (inb : ∀ a, off a + S400x64.size a ≤ S10000x64.size a) (f7 : sc1.view.ty.Contents (Elt F))
    (hprev : MixUpTo V c t.val (sc1.view.read (Elt F) f7)) :
    MixUpTo V c (t.val + 1) (sc1.view.read (Elt F) (sc1.view.writes (Elt F) f7
      [(⟨Rect.unit (s := S10000x64) off S400x64.size inb, mixBlk V c t⟩ : View.Piece (Elt F) S10000x64 .f32)])) := by
  intro y hy
  have hy0 : (y 0).val < 10000 := (y 0).isLt
  have hy1 : (y 1).val < 64 := (y 1).isLt
  rw [show min (t.val + 1) 25 = t.val + 1 by omega] at hy
  by_cases hlt : (y 0).val < 400 * t.val
  · -- a row below the stored panel: untouched, and covered by the hypothesis
    rw [View.read_writes_cons_rows_of_not_mem sc1.view f7 inb (mixBlk V c t) [] y hoff rfl (Or.inl hlt),
      View.writes_nil]
    exact hprev y (by rw [show min t.val 25 = t.val by omega]; exact hlt)
  · -- a row of the stored panel: it reads the panel at its own position
    have hge : 400 * t.val ≤ (y 0).val := by omega
    have hi : (y 0).val - 400 * t.val < 400 := by omega
    rw [View.read_writes_cons_rows_of_mem sc1.view f7 inb (mixBlk V c t) [] y
      (ValueIdx.ix2 (n0 := 400) (n1 := 64) ⟨(y 0).val - 400 * t.val, hi⟩ ⟨(y 1).val, hy1⟩) hoff
      (by show (y 0).val = 400 * t.val + ((y 0).val - 400 * t.val); omega) rfl]
    exact (mix_at_panel V c t y ⟨(y 0).val - 400 * t.val, hi⟩ ⟨(y 1).val, hy1⟩
      (by show (y 0).val = 400 * t.val + ((y 0).val - 400 * t.val); omega) rfl).symm

/-- Once all 25 panels are stored the contents ARE the whole array. -/
theorem mixUpTo_full (c : Dev nD) (n : ℕ) (hn : 25 ≤ n) (f : Vec F S10000x64 .f32) (h : MixUpTo V c n f) :
    f = mix V c := by
  funext y
  have hy0 : (y 0).val < 10000 := (y 0).isLt
  exact h y (by rw [show min n 25 = 25 by omega]; exact hy0)

end Cert.Kernel.Hand

end
-- ==== Proof.Bits.Obl0.lean ====
/-
  The first kernel's body at every grid point, against the proof data.

  Three cases by the grid coordinate t. At t = 0 the body computes P = X W1 into the projection scratch and stores
  panel 0 of H [W2|W3] into the mixing scratch. At 0 < t < 25 it reads P back and stores panel t on top of the
  panels below it: rows below 400 t already agree with H [W2|W3], the stored panel is rows 400 t .. 400 t + 399,
  so rows below 400 (t + 1) agree afterwards. At t ≥ 25 all 25 panels are in place, the mixing scratch IS
  H [W2|W3], and the output's staging buffer receives the adjacency panel times it. While the body stores nothing
  into the output's staging buffer (t < 25) that buffer is handed back as it was found, and it is not written
  back there. Each input window's staging buffer holds the window's block at every point, fetched there or not.
-/
import proofs.«161115_g32409823216073_cont_9to1_1175_24_alg».proof.Proof.Bits.Data
import proofs.«161115_g32409823216073_cont_9to1_1175_24_alg».proof.Proof.Bits.Body0
import proofs.«161115_g32409823216073_cont_9to1_1175_24_alg».proof.Proof.Bits.MixStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (iblk0 V c 3 t) (mix V c) := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## Where the output window is idle, and where it is written back -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, t.val < 25 → cfg0.idle 4 (grid0.coords t) = true := by decide +kernel
theorem noflush0_4 : ∀ t : Fin cfg0.N, t.val < 25 → (cfg0.win 4).flush t = false := by decide +kernel
theorem live0_4 : ∀ t : Fin cfg0.N, 25 ≤ t.val → cfg0.idle 4 (grid0.coords t) = false := by decide +kernel

/-! ## The invariant at a point that is not the first -/

theorem PhiS_succ (c : Dev nD) (n : ℕ) :
    PhiS V c (n + 1) = iprop((owns (c : Thread nD τ) sc0 fullShare (proj0 V c)
      ∗ (∃ f : Vec F S10000x64 .f32, iprop(owns (c : Thread nD τ) sc1 fullShare f ∗ ⌜MixUpTo V c (n + 1) f⌝))
      ∗ rest1 c) ∗ (∃ r, prngReg c r)) := rfl

theorem PhiS_pos (c : Dev nD) (n : ℕ) (hn : n ≠ 0) :
    PhiS V c n = iprop((owns (c : Thread nD τ) sc0 fullShare (proj0 V c)
      ∗ (∃ f : Vec F S10000x64 .f32, iprop(owns (c : Thread nD τ) sc1 fullShare f ∗ ⌜MixUpTo V c n f⌝))
      ∗ rest1 c) ∗ (∃ r, prngReg c r)) := by
  cases n with
  | zero => exact absurd rfl hn
  | succ n => rfl

/-- After any point the invariant gives the class invariant back: the scratches' named contents are forgotten. -/
theorem PhiS_out (c : Dev nD) (n : ℕ) : PhiS V c (n + 1) ⊢ (Pipeline.ΦA spec0 c : sProp 𝕄) := by
  rw [PhiS_succ, PhiA0_eq]
  iintro ⟨⟨HS0, ⟨%f, HS1, -⟩, Hrest⟩, Hg⟩
  isplitr [Hg]
  · isplitl [HS0]; · iexists _; iexact HS0
    isplitl [HS1]; · iexists _; iexact HS1
    iexact Hrest
  iexact Hg

/-- A buffer owned at read contents is its raw contents with that reading. -/
theorem owns_raw (c : Dev nD) {s : Shape} (a : Memref sig .tc .vmem s .f32) (v : Vec F s .f32) :
    owns (c : Thread nD τ) a fullShare v ⊢ (iprop(∃ f : a.view.ty.Contents (Elt F), ⌜a.view.read (Elt F) f = v⌝ ∗ (a.view.loc (c : Thread nD τ) ↦[a.view.set]{fullShare} f)) : sProp 𝕄) := by
  unfold owns; exact .rfl
theorem raw_owns (c : Dev nD) {s : Shape} (a : Memref sig .tc .vmem s .f32) (f : a.view.ty.Contents (Elt F)) :
    (a.view.loc (c : Thread nD τ) ↦[a.view.set]{fullShare} f : sProp 𝕄) ⊢ owns (c : Thread nD τ) a fullShare (a.view.read (Elt F) f) := by
  unfold owns; iintro H; iexists f; isplitr; · ipureintro; rfl
  iexact H

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves0_0 (c : Dev nD) (t : Fin cfg0.N) : (dat0 V c).leavesExact 0 t = owns (c : Thread nD τ) (st0_0 t) fullShare (iblk0 V c 0 t) := by
  unfold Dat.leavesExact; rw [live0_0 t, after0_0]
theorem leaves0_1 (c : Dev nD) (t : Fin cfg0.N) : (dat0 V c).leavesExact 1 t = owns (c : Thread nD τ) (st0_1 t) fullShare (iblk0 V c 1 t) := by
  unfold Dat.leavesExact; rw [live0_1 t, after0_1]
theorem leaves0_2 (c : Dev nD) (t : Fin cfg0.N) : (dat0 V c).leavesExact 2 t = owns (c : Thread nD τ) (st0_2 t) fullShare (iblk0 V c 2 t) := by
  unfold Dat.leavesExact; rw [live0_2 t, after0_2]
theorem leaves0_3 (c : Dev nD) (t : Fin cfg0.N) : (dat0 V c).leavesExact 3 t = owns (c : Thread nD τ) (st0_3 t) fullShare (iblk0 V c 3 t) := by
  unfold Dat.leavesExact; rw [live0_3 t, after0_3]
theorem leaves0_4_live (c : Dev nD) (t : Fin cfg0.N) (h : 25 ≤ t.val) :
    (dat0 V c).leavesExact 4 t = owns (c : Thread nD τ) (st0_4 t) fullShare (k0_pay3 (iblk0 V c 3 t) (mix V c)) := by
  unfold Dat.leavesExact; rw [live0_4 t h, after0_4]

theorem off_eq (t : Fin cfg0.N) (ht : t.val < 25) : k0_off1 (grid0.coords t) = ![400 * t.val, 0] := by
  rw [hoff1 t, Nat.mod_eq_of_lt ht]

set_option maxHeartbeats 4000000 in
/-- The body at any point. At the first point the projection is computed and panel 0 stored; at a later point below 25
    the projection scratch is read and panel t stored on top of the panels below it; from point 25 on the mixing
    scratch is complete and the output panel is the adjacency panel times it. The output's buffer is handed back
    as found while nothing is stored into it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiS V c (t.val + 1) from rfl,
    show (dat0 V c).Φ t.castSucc = PhiS V c t.val from rfl,
    leaves0_0, leaves0_1, leaves0_2, leaves0_3]
  have hN : t.val < 50 := lt_of_lt_of_eq t.isLt (show cfg0.N = 50 from N_0)
  by_cases h0 : t.val = 0
  · -- the first point
    have hc1 : cond1 (grid0.coords t) := (hcond1 t).mpr h0
    have hc2 : cond2 (grid0.coords t) := (hcond2 t).mpr (by omega)
    have hc3 : ¬cond3 (grid0.coords t) := fun h => by have := (hcond3 t).mp h; omega
    rw [Dat.leavesExact_idle (dat0 V c) 4 t (idle0_4 t (by omega)) (noflush0_4 t (by omega))]
    rw [show PhiS V c t.val = Pipeline.ΦA spec0 c from by rw [h0]; rfl, PhiA0_eq, PhiS_succ]
    have ht : t = pt0 := Fin.ext h0
    iintro ⟨⟨⟨⟨%d0, HS0⟩, ⟨%d1, HS1⟩, Hrest⟩, Hg⟩, Ho, ⟨%e0, H0⟩, ⟨%e1, H1⟩, ⟨%e2, H2⟩, ⟨%e3, H3⟩, H4⟩
    ihave HS1' := (owns_raw c sc1 d1) $$ HS1
    icases HS1' with ⟨%f7, %hf7, HS1⟩
    iapply (run0_A c (grid0.coords t) _ _ _ _ _ _ _ _ _ _ _ _ _ _ hc1 hc2 hc3 (iblk0 V c 0 t) (iblk0 V c 1 t) (iblk0 V c 2 t) (iblk0 V c 3 t) f7 Set.univ _)
    isplitl [H0]; · iexact H0
    isplitl [H1]; · iexact H1
    isplitl [H2]; · iexact H2
    isplitl [H3]; · iexact H3
    isplitl [HS0]; · iexists _; iexact HS0
    isplitl [HS1]; · iexact HS1
    iintro ⟨H0, H1, H2, H3, HS0, HS1⟩
    isplitl [HS0 HS1 Hrest Hg]
    · isplitr [Hg]
      · isplitl [HS0]
        · rw [show proj0 V c = k0_pay1 (iblk0 V c 0 t) (iblk0 V c 1 t) from by rw [ht]; rfl]; iexact HS0
        isplitr [Hrest]
        · iexists _
          isplitl [HS1]
          · iapply (raw_owns c sc1 _); iexact HS1
          · ipureintro
            have hstep := mixUpTo_step V c t (by omega) (k0_off1 (grid0.coords t)) (off_eq t (by omega)) (Facts₀.k0_off1_inb (grid0.coords t) hc2) f7
              (fun y hy => by rw [h0] at hy; simp at hy)
            rw [show mixBlk V c t = k0_pay2 (iblk0 V c 3 t) (k0_pay1 (iblk0 V c 0 t) (iblk0 V c 1 t)) (iblk0 V c 2 t) from by
              unfold mixBlk proj0; rw [ht]] at hstep
            exact hstep
        · iexact Hrest
      · iexact Hg
    isplitl [Ho]; · iexact Ho
    isplitl [H0]; · iexact H0
    isplitl [H1]; · iexact H1
    isplitl [H2]; · iexact H2
    isplitl [H3]; · iexact H3
    iexact H4
  · by_cases h25 : t.val < 25
    · -- a later point of the first phase
      have hc1 : ¬cond1 (grid0.coords t) := fun h => h0 ((hcond1 t).mp h)
      have hc2 : cond2 (grid0.coords t) := (hcond2 t).mpr h25
      have hc3 : ¬cond3 (grid0.coords t) := fun h => by have := (hcond3 t).mp h; omega
      rw [Dat.leavesExact_idle (dat0 V c) 4 t (idle0_4 t h25) (noflush0_4 t h25)]
      rw [PhiS_pos V c t.val h0, PhiS_succ]
      iintro ⟨⟨⟨HS0, ⟨%f, HS1, %hmix⟩, Hrest⟩, Hg⟩, Ho, ⟨%e0, H0⟩, ⟨%e1, H1⟩, ⟨%e2, H2⟩, ⟨%e3, H3⟩, H4⟩
      ihave HS1' := (owns_raw c sc1 f) $$ HS1
      icases HS1' with ⟨%f7, %hf7, HS1⟩
      iapply (run0_B c (grid0.coords t) _ _ _ _ _ _ _ _ _ _ _ _ _ _ hc1 hc2 hc3 (iblk0 V c 2 t) (iblk0 V c 3 t) (proj0 V c) f7 Set.univ _)
      isplitl [H2]; · iexact H2
      isplitl [H3]; · iexact H3
      isplitl [HS0]; · iexact HS0
      isplitl [HS1]; · iexact HS1
      iintro ⟨H2, H3, HS0, HS1⟩
      isplitl [HS0 HS1 Hrest Hg]
      · isplitr [Hg]
        · isplitl [HS0]; · iexact HS0
          isplitr [Hrest]
          · iexists _
            isplitl [HS1]
            · iapply (raw_owns c sc1 _); iexact HS1
            · ipureintro
              exact mixUpTo_step V c t h25 (k0_off1 (grid0.coords t)) (off_eq t h25) (Facts₀.k0_off1_inb (grid0.coords t) hc2) f7 (hf7 ▸ hmix)
          · iexact Hrest
        · iexact Hg
      isplitl [Ho]; · iexact Ho
      isplitl [H0]; · iexact H0
      isplitl [H1]; · iexact H1
      isplitl [H2]; · iexact H2
      isplitl [H3]; · iexact H3
      iexact H4
    · -- the second phase
      have hc1 : ¬cond1 (grid0.coords t) := fun h => h0 ((hcond1 t).mp h)
      have hc2 : ¬cond2 (grid0.coords t) := fun h => h25 ((hcond2 t).mp h)
      have hc3 : cond3 (grid0.coords t) := (hcond3 t).mpr (by omega)
      rw [leaves0_4_live V c t (by omega)]
      rw [PhiS_pos V c t.val h0, PhiS_succ]
      iintro ⟨⟨⟨HS0, ⟨%f, HS1, %hmix⟩, Hrest⟩, Hg⟩, Ho, ⟨%e0, H0⟩, ⟨%e1, H1⟩, ⟨%e2, H2⟩, ⟨%e3, H3⟩, ⟨%e4, H4⟩⟩
      obtain rfl : f = mix V c := mixUpTo_full V c t.val (by omega) f hmix
      iapply (run0_C c (grid0.coords t) _ _ _ _ _ _ _ _ _ _ _ _ _ _ hc1 hc2 hc3 (iblk0 V c 3 t) (mix V c) Set.univ _)
      isplitl [H3]; · iexact H3
      isplitl [HS1]; · iexact HS1
      isplitl [H4]; · iexists _; iexact H4
      iintro ⟨H3, HS1, H4⟩
      isplitl [HS0 HS1 Hrest Hg]
      · isplitr [Hg]
        · isplitl [HS0]; · iexact HS0
          isplitr [Hrest]
          · iexists _
            isplitl [HS1]; · iexact HS1
            ipureintro; exact fun _ _ => rfl
          · iexact Hrest
        · iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Body1.lean ====
/-
  The second kernel of the graph autoencoder: one 400-row panel of the Gram matrix mu muᵀ per grid point.

  At each of the 25 points the body reads the 400 x 32 panel of mu from the first window's staging buffer,
  reads all of mu (10000 x 32) from the second window's, and stores their product, contracting the second
  axis of both, over the whole of the third window's 400 x 10000 staging buffer. Nothing else is touched:
  there is no branch and no scratch, so the region invariant and the core's debts pass through unread.

  Three facts are proved, for any float instance:
    * the body's run: with the two inputs at given contents and the output buffer at anything, the inputs are
      left as found and the output holds the product of the two (one store through the whole buffer: what it
      leaves is its payload, whatever was there before);
    * each input window's current staging buffer holds its block of mu at every point: the panel window is
      fetched at each point; the whole-array window is fetched once, at the first point, and afterwards its
      block index does not move and the body leaves it in place;
    * hence the pipeline's body obligation for the second kernel's proof data at every point.
-/
import proofs.«161115_g32409823216073_cont_9to1_1175_24_alg».proof.Proof.Bits.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second kernel's body: one panel of the Gram matrix -/

/-- The offsets of a whole-buffer access of a rank-two buffer are all zero. -/
private theorem off00 : (![0, 0] : Fin 2 → Nat) = fun _ => 0 := by funext a; fin_cases a <;> rfl

/-- The whole output panel as a rectangle: the one store of the body is through it. -/
abbrev r1w : Rect S400x10000 := Rect.unit (s := S400x10000) ![0, 0] S400x10000.size inb_S400x10000_S400x10000_0_0

/-- That one store covers the panel. -/
theorem cover1_2 (p0 : Vec F S400x10000 .f32) (y : S400x10000.Idx) :
    ∃ pc ∈ ([⟨r1w, p0⟩] : List (View.Piece (Elt F) S400x10000 .f32)), y ∈ pc.1.set :=
  ⟨_, List.mem_singleton_self _, View.mem_set_unit_zero off00 inb_S400x10000_S400x10000_0_0 y⟩

/-- A load of a whole buffer through the full rectangle at zero offsets reads the buffer's contents. -/
private theorem readAt_whole_400x32 {κ : Kind} {sp : Space} (v : View sig κ sp S400x32 .f32) (f : v.ty.Contents (Elt F)) :
    v.readAt (Elt F) (Rect.unit (s := S400x32) ![0, 0] S400x32.size inb_S400x32_S400x32_0_0).toLoadRect f = v.read (Elt F) f :=
  View.ld_unit_zero off00 inb_S400x32_S400x32_0_0 (v.read (Elt F) f)

/-- The same for the buffer that holds all of mu. -/
private theorem readAt_whole_10000x32 {κ : Kind} {sp : Space} (v : View sig κ sp S10000x32 .f32) (f : v.ty.Contents (Elt F)) :
    v.readAt (Elt F) (Rect.unit (s := S10000x32) ![0, 0] S10000x32.size inb_S10000x32_S10000x32_0_0).toLoadRect f = v.read (Elt F) f :=
  View.ld_unit_zero off00 inb_S10000x32_S10000x32_0_0 (v.read (Elt F) f)

set_option maxHeartbeats 1000000 in
/-- The body on whole staging memrefs: with the panel of mu in the first and all of mu in the second, and
    the third at anything, it leaves the first two as found and the third at the panel times mu transposed
    (the product is the skeleton's payload: both operands contracted along their second axis). -/
theorem run1 (c : Dev nD) (i : grid1.Coords) (arg1 : Memref sig .tc .vmem S400x32 .f32) (harg1 : arg1.IsWhole) (arg2 : Memref sig .tc .vmem S10000x32 .f32) (harg2 : arg2.IsWhole) (arg3 : Memref sig .tc .vmem S400x10000 .f32) (harg3 : arg3.IsWhole)
    (x0 : Vec F S400x32 .f32) (x1 : Vec F S10000x32 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1__gram_body i arg1 harg1 arg2 harg2 arg3 harg3) K := by
  simp only [cc1__gram_body_eq_skeleton]; unfold cc1__gram_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  refine (View.canon_unit_zero off00 inb_S400x10000_S400x10000_0_0 _).trans ?_
  rw [readAt_whole_400x32, readAt_whole_10000x32]

/-! ## The second kernel's proof data, read field by field -/

/-- The arrays are the region's entry contents. -/
theorem A_eq1 (c : Dev nD) (w : Fin cfg1.W) : (dat1 V c).A w = V c (Pipeline.arrRef spec1 w) := by
  dsimp only [dat1]

/-- What the body leaves in each window's staging buffer: the inputs' blocks in place, the output's at the
    product of the two. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by
  dsimp only [dat1]

/-- The panel window's current staging buffer holds the panel of mu of the point, at every point: it is
    fetched at each. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The whole-array window's staging buffer holds all of mu at every point: fetched at the first point, and
    the body leaves it in place, its block index never moving. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation at a generic point -/

/-- What the body is handed at a point: the invariant, the core's debts, and the three current staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold the panel and all of mu, so the body's run applies;
    the invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run1 c _ _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Share1.lean ====
/-
  The second kernel's arrays when two of its windows read ONE array.

  The second kernel is handed mu twice: its row-panel window and its whole-matrix window both sit on mu's
  buffer, and its third window is the output's buffer. A core's unscoped buffers give the pipeline the DISTINCT
  buffers behind the windows' arrays — here two, mu's and the output's — each whole at the full share. The proof
  data wants one points-to per WINDOW — here three. The bridge is the share algebra: the full share is the sum of
  its left and right halves, so mu's buffer at the full share is the same resource as mu's buffer at the left half
  beside mu's buffer at the right half, at the same contents. The panel window takes the left half, the whole-matrix
  window the right half; both only read. The output window keeps its buffer at the full share.

    entry:  mu ↦{1} M ∗ out ↦{1} O          ⊢  mu ↦{½ₗ} M ∗ mu ↦{½ᵣ} M ∗ out ↦{1} O
    exit:   mu ↦{½ₗ} M ∗ mu ↦{½ᵣ} M ∗ out ↦{1} O'  ⊢  mu ↦{1} M ∗ out ↦{1} O'

  At exit the two input windows still hold M, since an input window's array is never written back; O' is what
  the 25 write-backs left in the output's buffer.
-/
import proofs.«161115_g32409823216073_cont_9to1_1175_24_alg».proof.Proof.Bits.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The two sides, written out -/

/-- Three windows, two buffers: the panel window and the whole-matrix window both sit on mu's buffer. -/
theorem arrRefs1 : Finset.univ.image (Pipeline.arrRef spec1) = {main_v2, main_v4} := by decide

/-- The distinct buffers behind the second kernel's arrays: mu's and the output's, each whole at the full share. -/
theorem arrBufs1_eq (c : Dev nD) (V' : (b : Ref sig .tc) → Buf (Elt F) ((c : Thread nD τ).loc b)) :
    (Pipeline.arrBufs spec1 c V' : sProp 𝕄)
      = iprop((((c : Thread nD τ).loc main_v2) ↦{fullShare} V' main_v2) ∗ (((c : Thread nD τ).loc main_v4) ↦{fullShare} V' main_v4)) := by
  unfold Pipeline.arrBufs
  rw [arrRefs1, bigSep_insert (by decide), bigSep_singleton]; rfl

/-- The shares the three windows hold their arrays at: the two readers of mu its two halves, the output all. -/
theorem dat1_share_0 (c : Dev nD) : (dat1 V c).share 0 = fullShare.left := by
  unfold Dat.share; dsimp only [dat1]; rfl
theorem dat1_share_1 (c : Dev nD) : (dat1 V c).share 1 = fullShare.right := by
  unfold Dat.share; dsimp only [dat1]; rfl
theorem dat1_share_2 (c : Dev nD) : (dat1 V c).share 2 = fullShare := by
  unfold Dat.share; dsimp only [dat1]; rfl

/-- The three windows' arrays at contents `G`: every array is a whole buffer, so each window's element set is
    all of its buffer; windows 0 and 1 name mu's buffer, window 2 the output's. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v2) ↦{fullShare.left} G 0) ∗ (((c : Thread nD τ).loc main_v2) ↦{fullShare.right} G 1)
          ∗ (((c : Thread nD τ).loc main_v4) ↦{fullShare} G 2)) := by
  unfold Dat.arrays
  -- the two windows on mu have one and the same element set, so one rewrite turns both into the whole buffer
  rw [bigSep_W1, (arr_whole1 0).set_eq_univ, (arr_whole1 2).set_eq_univ, dat1_share_0, dat1_share_1, dat1_share_2]

/-! ## Entry and exit -/

/-- ENTRY: the two buffers behind the second kernel's arrays, whole at the full share at the entry contents, are
    its three windows' arrays at the proof data's entry contents — mu's buffer as its two half shares. -/
theorem arrays1_split (c : Dev nD) :
    (Pipeline.arrBufs spec1 c (V c) : sProp 𝕄) ⊢ (dat1 V c).arrays ((dat1 V c).arrAt · 0) := by
  rw [arrBufs1_eq, arrays1_eq]
  -- before any write-back each window's array holds the entry contents of the buffer it names
  show iprop((((c : Thread nD τ).loc main_v2) ↦{fullShare} V c main_v2) ∗ (((c : Thread nD τ).loc main_v4) ↦{fullShare} V c main_v4))
    ⊢ (iprop((((c : Thread nD τ).loc main_v2) ↦{fullShare.left} V c main_v2) ∗ (((c : Thread nD τ).loc main_v2) ↦{fullShare.right} V c main_v2)
          ∗ (((c : Thread nD τ).loc main_v4) ↦{fullShare} V c main_v4)) : sProp 𝕄)
  iintro ⟨Hmu, Hout⟩
  -- 1 = ½ₗ + ½ᵣ on mu's buffer
  ihave Hmu := (pointsTo_share (PosShare.mem_left_op_right fullShare)).1 $$ Hmu
  icases Hmu with ⟨Hl, Hr⟩
  isplitl [Hl]; · iexact Hl
  isplitl [Hr]; · iexact Hr
  iexact Hout

/-- EXIT: the three windows' arrays at what the pipeline leaves are the two buffers whole at the full share, at any
    contents `V'` that has mu's buffer as entered and the output's buffer at what the write-backs left. -/
theorem arrays1_join (c : Dev nD) (V' : (b : Ref sig .tc) → Buf (Elt F) ((c : Thread nD τ).loc b))
    (h2 : V' main_v2 = V c main_v2) (h4 : V' main_v4 = (dat1 V c).arrAt 2 cfg1.N) :
    (dat1 V c).arrays ((dat1 V c).arrAt · cfg1.N) ⊢ (Pipeline.arrBufs spec1 c V' : sProp 𝕄) := by
  -- an input window's array is never written back: after all the points both readers still see mu as entered
  have e0 : (dat1 V c).arrAt 0 cfg1.N = V c main_v2 := (dat1 V c).arrAt_in 0 rfl _
  have e1 : (dat1 V c).arrAt 1 cfg1.N = V c main_v2 := (dat1 V c).arrAt_in 1 rfl _
  rw [arrBufs1_eq, arrays1_eq, h2, h4]
  beta_reduce
  rw [e0, e1]
  iintro ⟨Hl, Hr, Hout⟩
  isplitl [Hl Hr]
  · -- ½ₗ + ½ᵣ = 1 on mu's buffer, the two halves at the same contents
    iapply (pointsTo_share (PosShare.mem_left_op_right fullShare)).2
    isplitl [Hl]; · iexact Hl
    iexact Hr
  iexact Hout

end Cert.Kernel.Hand

end
-- ==== Proof.Bits.Run.lean ====
/-
  @main as four items — join the two weight matrices, the first kernel, slice its output into means and
  log-variances, the second kernel — and what every unscoped buffer holds between them: the launch memory; then the
  joined weights written; then the first kernel's output array at what its write-backs leave; then the two slices
  written; then the decoder's array at what the second kernel's write-backs leave. Each kernel is entered from the
  buffers at the contents before it and left at the contents after it; the generator register goes into a kernel's
  invariant and comes back; no core owes anything. The second kernel reads the array of means through two windows,
  which hold it at its two half shares and give it back whole. The frame — every argument array ends as launched —
  follows for any float instance.
-/
import proofs.«161115_g32409823216073_cont_9to1_1175_24_alg».proof.Proof.Bits.Data
import proofs.«161115_g32409823216073_cont_9to1_1175_24_alg».proof.Proof.Bits.Obl0
import proofs.«161115_g32409823216073_cont_9to1_1175_24_alg».proof.Proof.Bits.Body1
import proofs.«161115_g32409823216073_cont_9to1_1175_24_alg».proof.Proof.Bits.Share1
import proofs.«161115_g32409823216073_cont_9to1_1175_24_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- The first kernel's entry contents: the launch memory after the weights are joined. -/
abbrev E1 : (c : Dev nD) → (b : Ref sig .tc) → Buf (Elt F) ((c : Thread nD τ).loc b) := fun c b => Gen.V1 m c b

/-- What the first kernel leaves in its output array. -/
def out2 (c : Dev nD) : Buf (Elt F) ((c : Thread nD τ).loc main_v1) := (dat0 (E1 m) c).arrAt 4 cfg0.N

/-- After the first kernel, and after the two slices. -/
abbrev X2 (c : Dev nD) : Valuation τ sig (Elt F) := Function.update (Gen.V1 m c) main_v1 (out2 m c)
abbrev X3 (c : Dev nD) : Valuation τ sig (Elt F) := StableHlo.after hostOps1 (X2 m c)
/-- The second kernel's entry contents. -/
abbrev E3 : (c : Dev nD) → (b : Ref sig .tc) → Buf (Elt F) ((c : Thread nD τ).loc b) := fun c b => X3 m c b

/-- What the second kernel leaves in its output array. -/
def out4 (c : Dev nD) : Buf (Elt F) ((c : Thread nD τ).loc main_v4) := (dat1 (E3 m) c).arrAt 2 cfg1.N

/-- What the two kernels leave, as the table the generated valuations read. -/
def outs : Gen.Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r))
      (fun r c => Classical.arbitrary _) main_v1 (out2 m)) main_v4 (out4 m)

theorem outs_v1 (n : ℕ) (c : Dev nD) : outs m n main_v1 c = out2 m c := by
  unfold outs
  rw [Function.update_of_ne (show (main_v1 : Ref sig .tc) ≠ main_v4 by decide), Function.update_self]

theorem outs_v4 (n : ℕ) (c : Dev nD) : outs m n main_v4 c = out4 m c := by
  unfold outs
  rw [Function.update_self]

theorem V2_eq (c : Dev nD) : Gen.V2 m (outs m) c = X2 m c := by
  show Function.update (Gen.V1 m c) main_v1 (outs m 2 main_v1 c) = _
  rw [outs_v1]

theorem V3_eq (c : Dev nD) : Gen.V3 m (outs m) c = X3 m c := congrArg (StableHlo.after hostOps1) (V2_eq m c)

/-! ## The proof data family and what rides beside the buffers -/

def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
abbrev L : GSem nD τ sig → Finset Unit := fun _ => ∅
abbrev lv : GSem nD τ sig → Unit → ℕ := fun _ _ => 0
/-- Beside the buffers every item carries the generator register at some state and the core owing nothing. -/
abbrev R (c : Dev nD) : sProp 𝕄 := iprop((∃ r, prngReg c r) ∗ ∃ W, owes (c : Thread nD τ) (0 : CellTallies nD τ sig Unit) W)

/-! ## What each kernel's arrays hold at its exit, against the next valuation -/

theorem hF0 (c : Dev nD) (w : Fin cfg0.W) : (pdats m 0 c).arrAt w cfg0.N = (fun b : Ref sig .tc => Gen.V2 m (outs m) c b) (Pipeline.arrRef spec0 w) := by
  match w with
  | ⟨0, _⟩ => exact ((dat0 (E1 m) c).arrAt_in 0 rfl _).trans ((by dsimp only [dat0] : (dat0 (E1 m) c).A 0 = E1 m c (Pipeline.arrRef spec0 0)).trans (Gen.V2_of m (outs m) c _ (by decide)).symm)
  | ⟨1, _⟩ => exact ((dat0 (E1 m) c).arrAt_in 1 rfl _).trans ((by dsimp only [dat0] : (dat0 (E1 m) c).A 1 = E1 m c (Pipeline.arrRef spec0 1)).trans (Gen.V2_of m (outs m) c _ (by decide)).symm)
  | ⟨2, _⟩ => exact ((dat0 (E1 m) c).arrAt_in 2 rfl _).trans ((by dsimp only [dat0] : (dat0 (E1 m) c).A 2 = E1 m c (Pipeline.arrRef spec0 2)).trans (Gen.V2_of m (outs m) c _ (by decide)).symm)
  | ⟨3, _⟩ => exact ((dat0 (E1 m) c).arrAt_in 3 rfl _).trans ((by dsimp only [dat0] : (dat0 (E1 m) c).A 3 = E1 m c (Pipeline.arrRef spec0 3)).trans (Gen.V2_of m (outs m) c _ (by decide)).symm)
  | ⟨4, _⟩ =>
    show (dat0 (E1 m) c).arrAt 4 cfg0.N = Function.update (Gen.V1 m c) (Proc.devRef .tc main_v1) (outs m 2 main_v1 c) (Proc.devRef .tc main_v1)
    rw [Function.update_self, outs_v1]; rfl

theorem hrest0 (c : Dev nD) : ∀ b, b ∉ Finset.univ.image (Pipeline.arrRef spec0) → (fun b : Ref sig .tc => Gen.V2 m (outs m) c b) b = E1 m c b :=
  fun b hb => Gen.V2_of m (outs m) c b (by
    intro h; rw [List.mem_singleton] at h; subst h
    exact hb (Finset.mem_image.mpr ⟨4, Finset.mem_univ _, rfl⟩))

set_option backward.isDefEq.respectTransparency.types false in
/-- THE FIRST KERNEL as an item of @main: entered from every unscoped buffer at the contents after the weights are
    joined, left with its output array at what its write-backs leave; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from PhiS_out (E1 m) c 49).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second kernel's exit contents -/

theorem V4_v2 (c : Dev nD) : (fun b : Ref sig .tc => Gen.V4 m (outs m) c b) main_v2 = E3 m c main_v2 :=
  (Gen.V4_of m (outs m) c main_v2 (by decide)).trans (congrFun (V3_eq m c) _)

theorem V4_v4 (c : Dev nD) : (fun b : Ref sig .tc => Gen.V4 m (outs m) c b) main_v4 = (dat1 (E3 m) c).arrAt 2 cfg1.N := by
  show Function.update (Gen.V3 m (outs m) c) (Proc.devRef .tc main_v4) (outs m 4 main_v4 c) (Proc.devRef .tc main_v4) = _
  rw [Function.update_self, outs_v4]; rfl

theorem rest1_congr (c : Dev nD) :
    (Pipeline.unscopedRest (Ix := Unit) (Name := ℕ) (U := UR sig nD τ) (Lvl := ℕ) spec1 c (E3 m c) : sProp 𝕄)
      = Pipeline.unscopedRest spec1 c (fun b : Ref sig .tc => Gen.V4 m (outs m) c b) := by
  unfold Pipeline.unscopedRest
  refine bigSep_congr fun b hb => ?_
  have hb' : b ∉ Finset.univ.image (Pipeline.arrRef spec1) := (Finset.mem_sdiff.mp hb).2
  have h4 : b ∉ ([main_v4] : List (Ref sig .tc)) := by
    intro h; rw [List.mem_singleton] at h; subst h
    exact hb' (Finset.mem_image.mpr ⟨2, Finset.mem_univ _, rfl⟩)
  rw [show (fun b : Ref sig .tc => Gen.V4 m (outs m) c b) b = E3 m c b from
    (Gen.V4_of m (outs m) c b h4).trans (congrFun (V3_eq m c) _)]

set_option backward.isDefEq.respectTransparency.types false in
/-- THE SECOND KERNEL as an item of @main: entered from the contents after the two slices, its two input windows
    holding the one array of means at its two half shares; left with the decoder's array at what its write-backs
    leave and the means' buffer whole again. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (unscopedBufs c (E3 m c) : sProp 𝕄)
        ⊢ iprop((pdats m 1 c).arrays ((pdats m 1 c).arrAt · 0) ∗ Pipeline.unscopedRest spec1 c (E3 m c)) := by
      rw [Pipeline.unscopedBufs_split₀ cfgs 1 winFacts₀1.arr_unscoped c (E3 m c)]
      exact sep_mono (arrays1_split (E3 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E3 m c))
        ⊢ (unscopedBufs c (fun b : Ref sig .tc => Gen.V4 m (outs m) c b) : sProp 𝕄) := by
      rw [Pipeline.unscopedBufs_split₀ cfgs 1 winFacts₀1.arr_unscoped c (fun b : Ref sig .tc => Gen.V4 m (outs m) c b), rest1_congr m c]
      exact sep_mono (arrays1_join (E3 m) c _ (V4_v2 m c) (V4_v4 m c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipelines' rounds state at every staging cell. -/
abbrev u₀ : UR sig nD τ := initOf (Pipeline.cells cfgs cellOf_inj) (Pipeline.launchToks cfgs cellOf_inj)

theorem hu₀ : (ownU u₀ : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers, at every boundary. -/
abbrev Es : Fin 3 → Dev nD → sProp 𝕄 := fun _ c => R c

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (Es (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : Es (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME at any float instance: @main runs to the end from any memory, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond (F := F) (Ix := Unit) (U := UR sig nD τ) (Lvl := ℕ) m (emb₁ : Emb (UR sig nD τ) 𝕄) () 𝒱₀ L lv (fun _ _ => rfl) ρ (outs m) (pdats m) 0 (fun _ => (BI.emp : sProp 𝕄)) u₀ hu₀ Es (hE0 ρ) hE2
    (reg0 m) (fun _ => .rfl) (fun _ => .rfl)
    (reg1 m) (fun c => by rw [V3_eq]; exact .rfl) (fun _ => .rfl)

end Cert.Kernel.Hand

end
-- ==== Proof.Data.lean ====
/-
  What each pipeline's buffers hold, point by point, for the two kernels of the graph autoencoder.

  FIRST KERNEL, 50 grid points. The whole feature matrix X, both weight windows and a 400-row panel of the
  adjacency A (panel t mod 25) are staged; two scratch buffers live across the points:
    * the projection scratch holds P = X W1 from the first point on;
    * the mixing scratch is filled panel by panel: after point t < 25 its rows below 400 (t + 1) hold
      H [W2|W3] (row r is row r mod 400 of panel r div 400, each panel computed from A's panel and P);
      from point 25 on it holds all of H [W2|W3];
    * at point t ≥ 25 the output panel t - 25 is A's panel times the mixing scratch; before that the
      output's staging buffer is left as found (and is not written back).
  SECOND KERNEL, 25 grid points: a 400-row panel of mu and all of mu are staged (two windows on ONE array,
  which they hold at its two half shares); the output panel is the panel times mu transposed.
  Everything here is stated for any float instance: at the word level it is the frame's proof data, at the
  ideal instance the value legs read it.
-/
import proofs.«161115_g32409823216073_cont_9to1_1175_24_alg».proof.Proof.Gen.KernelIdeal.Launch
import proofs.«161115_g32409823216073_cont_9to1_1175_24_alg».proof.Proof.Gen.KernelIdeal.Skeleton
import proofs.«161115_g32409823216073_cont_9to1_1175_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## First kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev pt0 : Fin cfg0.N := ⟨0, by rw [show cfg0.N = 50 from N_0]; omega⟩

/-- The two scratch buffers, as memrefs. -/
abbrev sc0 : Memref sig .tc .vmem S10000x32 .f32 := Memref.whole cc0_scratch0
abbrev sc1 : Memref sig .tc .vmem S10000x64 .f32 := Memref.whole cc0_scratch1

/-- P = X W1, as the first point computes it from the two resident windows. -/
def proj0 (c : Dev nD) : Vec F S10000x32 .f32 := k0_pay1 (iblk0 V c 0 pt0) (iblk0 V c 1 pt0)

/-- Panel `t` of H [W2|W3]: from A's panel at `t`, P, and the joined weights. -/
def mixBlk (c : Dev nD) (t : Fin cfg0.N) : Vec F S400x64 .f32 := k0_pay2 (iblk0 V c 3 t) (proj0 V c) (iblk0 V c 2 t)

theorem row_div_lt (y : S10000x64.Idx) : (y 0).val / 400 < cfg0.N := by
  have h : (y 0).val < 10000 := (y 0).isLt
  rw [show cfg0.N = 50 from N_0]; omega

theorem row_mod_lt (y : S10000x64.Idx) : (y 0).val % 400 < 400 := Nat.mod_lt _ (by decide)

/-- H [W2|W3] whole: row r is row r mod 400 of panel r div 400. -/
def mix (c : Dev nD) : Vec F S10000x64 .f32 := fun y =>
  mixBlk V c ⟨(y 0).val / 400, row_div_lt y⟩ (ValueIdx.ix2 (n0 := 400) (n1 := 64) ⟨(y 0).val % 400, row_mod_lt y⟩ (y 1))

/-- The second kernel's staging buffers, which the first kernel never touches: each at some contents. -/
def rest1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the mixing scratch is known to hold before point `n`: H [W2|W3] on the rows already stored. -/
def MixUpTo (c : Dev nD) (n : ℕ) (f : Vec F S10000x64 .f32) : Prop :=
  ∀ y : S10000x64.Idx, (y 0).val < 400 * min n 25 → f y = mix V c y

/-- The region invariant before point `n`: at the first point every scoped buffer no window stages at
    anything; afterwards the projection scratch at P, the mixing scratch at contents that agree with
    H [W2|W3] on the rows stored so far, the second kernel's staging buffers at anything. -/
def PhiS (c : Dev nD) : ℕ → sProp 𝕄
  | 0 => Pipeline.ΦA spec0 c
  | n + 1 => iprop((owns (c : Thread nD τ) sc0 fullShare (proj0 V c)
      ∗ (∃ f : Vec F S10000x64 .f32, iprop(owns (c : Thread nD τ) sc1 fullShare f ∗ ⌜MixUpTo V c (n + 1) f⌝))
      ∗ rest1 c) ∗ (∃ r, prngReg c r))

/-- The class invariant with the scratch operands as memrefs. -/
theorem PhiA0_eq (c : Dev nD) :
    (Pipeline.ΦA spec0 c : sProp 𝕄)
      = iprop(((∃ d, owns (c : Thread nD τ) sc0 fullShare d) ∗ (∃ d, owns (c : Thread nD τ) sc1 fullShare d) ∗ rest1 c) ∗ (∃ r, prngReg c r)) := by
  unfold Pipeline.ΦA rest1; rw [scopedRest0_eq]; simp only [sc0, sc1, owns_whole]; try rfl

/-- The first kernel's proof data at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 3 t) (mix V c)
  Φ t := PhiS V c t.val
  q _ := fullShare
  owed _ := 0

/-! ## Second kernel -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's proof data at entry contents `V`: the two input windows hold their one array at its
    two half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

end Cert.KernelIdeal.Hand

end
-- ==== Proof.Body0.lean ====
/-
  The first kernel's body at one grid point, in its three control cases.

  The body branches three times on the grid coordinate t:
    * if t = 0, the projection P = X W1 is stored over the whole projection scratch;
    * if t < 25, the 400 rows of the mixing scratch starting at row 400 (t mod 25) receive
      relu(A_panel P) [W2|W3], where P is what the projection scratch holds at that moment;
    * if t ≥ 25, the output's staging block receives A_panel times the whole mixing scratch.
  Over the 50 points only three combinations of the conditions occur: t = 0 (first and second branch),
  0 < t < 25 (second branch alone), t ≥ 25 (third branch alone). For each there is a triple: from the
  buffers the case touches, owned at named contents, the body runs to any continuation that accepts the
  same buffers with the stored block written. At t = 0 the second product reads the projection scratch
  back after the store; the store covered the whole buffer, so what is read is P itself.
  Everything is stated for any float instance.
-/
import proofs.«161115_g32409823216073_cont_9to1_1175_24_alg».proof.Proof.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three branch conditions over the grid -/

/-- The first branch's condition on the grid coordinate: t = 0, as the body's integer chain computes it. -/
abbrev cond1 (i : grid0.Coords) : Prop := (Scalar.cmpi .ne (Scalar.extui (Scalar.cmpi .eq (BitVec.ofNat 32 (i 0).val) 0#32)) 0#32) = 1#1
/-- The second branch's condition: t < 25. -/
abbrev cond2 (i : grid0.Coords) : Prop := k0_cond2 i = 1#1
/-- The third branch's condition: t ≥ 25. -/
abbrev cond3 (i : grid0.Coords) : Prop := k0_cond3 i = 1#1

/-- The first condition holds at the first point only. -/
theorem hcond1 : ∀ t : Fin cfg0.N, cond1 (grid0.coords t) ↔ t.val = 0 :=
  (by decide +kernel : ∀ t : Fin grid0.N, cond1 (grid0.coords t) ↔ t.val = 0)
/-- The second holds on the first 25 points. -/
theorem hcond2 : ∀ t : Fin cfg0.N, cond2 (grid0.coords t) ↔ t.val < 25 :=
  (by decide +kernel : ∀ t : Fin grid0.N, cond2 (grid0.coords t) ↔ t.val < 25)
/-- The third holds on the last 25 points. -/
theorem hcond3 : ∀ t : Fin cfg0.N, cond3 (grid0.coords t) ↔ 25 ≤ t.val :=
  (by decide +kernel : ∀ t : Fin grid0.N, cond3 (grid0.coords t) ↔ 25 ≤ t.val)
/-- The row offset of the mixing scratch's panel at point t: 400 (t mod 25), column offset 0. -/
theorem hoff1 : ∀ t : Fin cfg0.N, k0_off1 (grid0.coords t) = ![400 * (t.val % 25), 0] :=
  (by decide +kernel : ∀ t : Fin grid0.N, k0_off1 (grid0.coords t) = ![400 * (t.val % 25), 0])

/-- The rectangle of the mixing scratch the second branch stores into: 400 rows by 64 columns at that offset. -/
abbrev mixRect (i : grid0.Coords) (h : cond2 i) : Rect S10000x64 :=
  Rect.unit (s := S10000x64) (k0_off1 i) S400x64.size (Facts₀.k0_off1_inb i h)

/-! ## Reading back a whole-buffer access -/

/-- The two-axis zero offsets, however spelt, are the constant zero. -/
theorem zero2 : (![0, 0] : Fin 2 → ℕ) = fun _ => 0 := by funext a; fin_cases a <;> rfl

/-- One store through the whole-shape rectangle leaves its payload, whatever the buffer held. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

/-- A load through the whole-shape rectangle of a whole buffer reads its contents. -/
theorem load_whole {κ : Kind} {sp : Space} {S : Shape} {e : EltTy} {m : Memref sig κ sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 1000000 in
/-- The first point (t = 0): the projection scratch, at anything, receives P = X W1; the panel of the mixing
    scratch receives relu(A_panel P) [W2|W3] with that same P, read back from the scratch just stored. The
    feature matrix, the weights and A's panel are read and kept. -/
theorem run0_A (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S32x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x32 .f32) (harg6 : arg6.IsWhole) (arg7 : Memref sig .tc .vmem S10000x64 .f32) (harg7 : arg7.IsWhole)
    (hc1 : cond1 i) (hc2 : cond2 i) (hc3 : ¬cond3 i)
    (x : Vec F S10000x128 .f32) (w1 : Vec F S128x32 .f32) (wc : Vec F S32x64 .f32) (a : Vec F S400x10000 .f32)
    (f7 : arg7.view.ty.Contents (Elt F)) (E : Set ℕ) (K : PUnit → sProp 𝕄) :
    iprop(owns (c : Thread nD τ) arg1 fullShare x ∗ owns (c : Thread nD τ) arg2 fullShare w1 ∗ owns (c : Thread nD τ) arg3 fullShare wc
        ∗ owns (c : Thread nD τ) arg4 fullShare a ∗ (∃ d, owns (c : Thread nD τ) arg6 fullShare d)
        ∗ (arg7.view.loc (c : Thread nD τ) ↦[arg7.view.set]{fullShare} f7)
        ∗ (iprop(owns (c : Thread nD τ) arg1 fullShare x ∗ owns (c : Thread nD τ) arg2 fullShare w1 ∗ owns (c : Thread nD τ) arg3 fullShare wc
              ∗ owns (c : Thread nD τ) arg4 fullShare a ∗ owns (c : Thread nD τ) arg6 fullShare (k0_pay1 x w1)
              ∗ (arg7.view.loc (c : Thread nD τ) ↦[arg7.view.set]{fullShare} arg7.view.writes (Elt F) f7 [⟨mixRect i hc2, k0_pay2 a (k0_pay1 x w1) wc⟩])) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d6, %f6, -, H6⟩, H7, Hk⟩
  obtain rfl := harg1.eq_unread hf1; obtain rfl := harg2.eq_unread hf2; obtain rfl := harg3.eq_unread hf3; obtain rfl := harg4.eq_unread hf4
  sl_exec (disch := first | exact hc1 | exact hc2 | exact hc3)
  sl_step
  iapply Hk
  sl_unfold_run_names
  rw [load_whole harg1 zero2, load_whole harg2 zero2, load_whole harg3 zero2, load_whole harg4 zero2,
    View.readCov_unit_zero (S := S10000x32) _ zero2]
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    exact read_store_whole _ _ zero2 _ _
  iexact H7

set_option maxHeartbeats 1000000 in
/-- A point 0 < t < 25: the projection scratch holds some H, which is read and kept; the panel of the mixing
    scratch receives relu(A_panel H) [W2|W3]. The joined weights and A's panel are read and kept. -/
theorem run0_B (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S32x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x32 .f32) (harg6 : arg6.IsWhole) (arg7 : Memref sig .tc .vmem S10000x64 .f32) (harg7 : arg7.IsWhole)
    (hc1 : ¬cond1 i) (hc2 : cond2 i) (hc3 : ¬cond3 i)
    (wc : Vec F S32x64 .f32) (a : Vec F S400x10000 .f32) (h : Vec F S10000x32 .f32) (f7 : arg7.view.ty.Contents (Elt F)) (E : Set ℕ) (K : PUnit → sProp 𝕄) :
    iprop(owns (c : Thread nD τ) arg3 fullShare wc ∗ owns (c : Thread nD τ) arg4 fullShare a ∗ owns (c : Thread nD τ) arg6 fullShare h
        ∗ (arg7.view.loc (c : Thread nD τ) ↦[arg7.view.set]{fullShare} f7)
        ∗ (iprop(owns (c : Thread nD τ) arg3 fullShare wc ∗ owns (c : Thread nD τ) arg4 fullShare a ∗ owns (c : Thread nD τ) arg6 fullShare h
              ∗ (arg7.view.loc (c : Thread nD τ) ↦[arg7.view.set]{fullShare} arg7.view.writes (Elt F) f7 [⟨mixRect i hc2, k0_pay2 a h wc⟩])) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f3, %hf3, H3⟩, ⟨%f4, %hf4, H4⟩, ⟨%f6, %hf6, H6⟩, H7, Hk⟩
  obtain rfl := harg3.eq_unread hf3; obtain rfl := harg4.eq_unread hf4; obtain rfl := harg6.eq_unread hf6
  sl_exec (disch := first | exact hc1 | exact hc2 | exact hc3)
  sl_step
  iapply Hk
  rw [load_whole harg4 zero2, load_whole harg6 zero2, load_whole harg3 zero2]
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexact H7

set_option maxHeartbeats 1000000 in
/-- A point t ≥ 25: the output's staging block, at anything, receives A_panel G, where G is the whole
    mixing scratch; A's panel and the mixing scratch are read and kept. -/
theorem run0_C (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S32x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x32 .f32) (harg6 : arg6.IsWhole) (arg7 : Memref sig .tc .vmem S10000x64 .f32) (harg7 : arg7.IsWhole)
    (hc1 : ¬cond1 i) (hc2 : ¬cond2 i) (hc3 : cond3 i)
    (a : Vec F S400x10000 .f32) (g : Vec F S10000x64 .f32) (E : Set ℕ) (K : PUnit → sProp 𝕄) :
    iprop(owns (c : Thread nD τ) arg4 fullShare a ∗ owns (c : Thread nD τ) arg7 fullShare g ∗ (∃ d, owns (c : Thread nD τ) arg5 fullShare d)
        ∗ (iprop(owns (c : Thread nD τ) arg4 fullShare a ∗ owns (c : Thread nD τ) arg7 fullShare g ∗ owns (c : Thread nD τ) arg5 fullShare (k0_pay3 a g)) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f4, %hf4, H4⟩, ⟨%f7, %hf7, H7⟩, ⟨%d5, %f5, -, H5⟩, Hk⟩
  obtain rfl := harg4.eq_unread hf4; obtain rfl := harg7.eq_unread hf7
  sl_exec (disch := first | exact hc1 | exact hc2 | exact hc3)
  sl_step
  iapply Hk
  isplitl [H4]
  · iexists _; isplitr; · ipureintro; exact harg4.read_unread _
    iexact H4
  isplitl [H7]
  · iexists _; isplitr; · ipureintro; exact harg7.read_unread _
    iexact H7
  iexists _; isplitr
  swap; · iexact H5
  ipureintro
  refine (read_store_whole _ _ zero2 _ _).trans ?_
  rw [load_whole harg4 zero2, load_whole harg7 zero2]

end Cert.KernelIdeal.Hand

end
-- ==== Proof.MixStep.lean ====
/-
  Two facts about the mixing scratch of the first kernel, seen as a plain array of 10000 rows and 64 columns
  that is filled 400 rows at a time.

  The scratch is described by "it agrees with the whole array H [W2|W3] on every row below 400 * min n 25".
  Storing panel t (rows 400 t .. 400 t + 399, every column) on top of contents that satisfy this for n = t
  gives contents that satisfy it for n = t + 1: a row below 400 t is untouched by the store and is covered by
  the hypothesis; a row r with 400 t ≤ r < 400 (t + 1) reads the stored panel at row r - 400 t, and since
  r / 400 = t and r % 400 = r - 400 t this is by definition the whole array's entry at row r.
  Once n ≥ 25 the bound 400 * 25 = 10000 is the number of rows, so the description says the contents are
  the whole array.
-/
import proofs.«161115_g32409823216073_cont_9to1_1175_24_alg».proof.Proof.Data
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-- The whole array at a row of panel `t`: row `400 t + i`, column `j` is the panel's entry `(i, j)`. -/
theorem mix_at_panel (c : Dev nD) (t : Fin cfg0.N) (y : S10000x64.Idx) (i : Fin 400) (j : Fin 64)
    (h0 : (y 0).val = 400 * t.val + i.val) (h1 : (y 1).val = j.val) :
    mix V c y = mixBlk V c t (ValueIdx.ix2 i j) := by
  have hi : i.val < 400 := i.isLt
  have hd : (y 0).val / 400 = t.val := by rw [h0]; omega
  have hm : (y 0).val % 400 = i.val := by rw [h0]; omega
  have e1 : (⟨(y 0).val / 400, row_div_lt y⟩ : Fin cfg0.N) = t := Fin.ext hd
  have e2 : (⟨(y 0).val % 400, row_mod_lt y⟩ : Fin 400) = i := Fin.ext hm
  have e3 : (y 1 : Fin 64) = j := Fin.ext h1
  show mixBlk V c ⟨(y 0).val / 400, row_div_lt y⟩
      (ValueIdx.ix2 (n0 := 400) (n1 := 64) ⟨(y 0).val % 400, row_mod_lt y⟩ (y 1)) = _
  rw [e1, e2, e3]

/-- Storing panel t (rows 400 t .. 400 t + 399, all 64 columns) on top of contents that agree with the whole array below row 400 t gives contents that agree below row 400 (t + 1). -/
theorem mixUpTo_step (c : Dev nD) (t : Fin cfg0.N) (ht : t.val < 25) (off : Fin 2 → ℕ) (hoff : off = ![400 * t.val, 0])
    (inb : ∀ a, off a + S400x64.size a ≤ S10000x64.size a) (f7 : sc1.view.ty.Contents (Elt F))
    (hprev : MixUpTo V c t.val (sc1.view.read (Elt F) f7)) :
    MixUpTo V c (t.val + 1) (sc1.view.read (Elt F) (sc1.view.writes (Elt F) f7
      [(⟨Rect.unit (s := S10000x64) off S400x64.size inb, mixBlk V c t⟩ : View.Piece (Elt F) S10000x64 .f32)])) := by
  intro y hy
  have hy0 : (y 0).val < 10000 := (y 0).isLt
  have hy1 : (y 1).val < 64 := (y 1).isLt
  rw [show min (t.val + 1) 25 = t.val + 1 by omega] at hy
  by_cases hlt : (y 0).val < 400 * t.val
  · -- a row below the stored panel: untouched, and covered by the hypothesis
    rw [View.read_writes_cons_rows_of_not_mem sc1.view f7 inb (mixBlk V c t) [] y hoff rfl (Or.inl hlt),
      View.writes_nil]
    exact hprev y (by rw [show min t.val 25 = t.val by omega]; exact hlt)
  · -- a row of the stored panel: it reads the panel at its own position
    have hge : 400 * t.val ≤ (y 0).val := by omega
    have hi : (y 0).val - 400 * t.val < 400 := by omega
    rw [View.read_writes_cons_rows_of_mem sc1.view f7 inb (mixBlk V c t) [] y
      (ValueIdx.ix2 (n0 := 400) (n1 := 64) ⟨(y 0).val - 400 * t.val, hi⟩ ⟨(y 1).val, hy1⟩) hoff
      (by show (y 0).val = 400 * t.val + ((y 0).val - 400 * t.val); omega) rfl]
    exact (mix_at_panel V c t y ⟨(y 0).val - 400 * t.val, hi⟩ ⟨(y 1).val, hy1⟩
      (by show (y 0).val = 400 * t.val + ((y 0).val - 400 * t.val); omega) rfl).symm

/-- Once all 25 panels are stored the contents ARE the whole array. -/
theorem mixUpTo_full (c : Dev nD) (n : ℕ) (hn : 25 ≤ n) (f : Vec F S10000x64 .f32) (h : MixUpTo V c n f) :
    f = mix V c := by
  funext y
  have hy0 : (y 0).val < 10000 := (y 0).isLt
  exact h y (by rw [show min n 25 = 25 by omega]; exact hy0)

end Cert.KernelIdeal.Hand

end
-- ==== Proof.Obl0.lean ====
/-
  The first kernel's body at every grid point, against the proof data.

  Three cases by the grid coordinate t. At t = 0 the body computes P = X W1 into the projection scratch and stores
  panel 0 of H [W2|W3] into the mixing scratch. At 0 < t < 25 it reads P back and stores panel t on top of the
  panels below it: rows below 400 t already agree with H [W2|W3], the stored panel is rows 400 t .. 400 t + 399,
  so rows below 400 (t + 1) agree afterwards. At t ≥ 25 all 25 panels are in place, the mixing scratch IS
  H [W2|W3], and the output's staging buffer receives the adjacency panel times it. While the body stores nothing
  into the output's staging buffer (t < 25) that buffer is handed back as it was found, and it is not written
  back there. Each input window's staging buffer holds the window's block at every point, fetched there or not.
-/
import proofs.«161115_g32409823216073_cont_9to1_1175_24_alg».proof.Proof.Data
import proofs.«161115_g32409823216073_cont_9to1_1175_24_alg».proof.Proof.Body0
import proofs.«161115_g32409823216073_cont_9to1_1175_24_alg».proof.Proof.MixStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (iblk0 V c 3 t) (mix V c) := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## Where the output window is idle, and where it is written back -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, t.val < 25 → cfg0.idle 4 (grid0.coords t) = true := by decide +kernel
theorem noflush0_4 : ∀ t : Fin cfg0.N, t.val < 25 → (cfg0.win 4).flush t = false := by decide +kernel
theorem live0_4 : ∀ t : Fin cfg0.N, 25 ≤ t.val → cfg0.idle 4 (grid0.coords t) = false := by decide +kernel

/-! ## The invariant at a point that is not the first -/

theorem PhiS_succ (c : Dev nD) (n : ℕ) :
    PhiS V c (n + 1) = iprop((owns (c : Thread nD τ) sc0 fullShare (proj0 V c)
      ∗ (∃ f : Vec F S10000x64 .f32, iprop(owns (c : Thread nD τ) sc1 fullShare f ∗ ⌜MixUpTo V c (n + 1) f⌝))
      ∗ rest1 c) ∗ (∃ r, prngReg c r)) := rfl

theorem PhiS_pos (c : Dev nD) (n : ℕ) (hn : n ≠ 0) :
    PhiS V c n = iprop((owns (c : Thread nD τ) sc0 fullShare (proj0 V c)
      ∗ (∃ f : Vec F S10000x64 .f32, iprop(owns (c : Thread nD τ) sc1 fullShare f ∗ ⌜MixUpTo V c n f⌝))
      ∗ rest1 c) ∗ (∃ r, prngReg c r)) := by
  cases n with
  | zero => exact absurd rfl hn
  | succ n => rfl

/-- After any point the invariant gives the class invariant back: the scratches' named contents are forgotten. -/
theorem PhiS_out (c : Dev nD) (n : ℕ) : PhiS V c (n + 1) ⊢ (Pipeline.ΦA spec0 c : sProp 𝕄) := by
  rw [PhiS_succ, PhiA0_eq]
  iintro ⟨⟨HS0, ⟨%f, HS1, -⟩, Hrest⟩, Hg⟩
  isplitr [Hg]
  · isplitl [HS0]; · iexists _; iexact HS0
    isplitl [HS1]; · iexists _; iexact HS1
    iexact Hrest
  iexact Hg

/-- A buffer owned at read contents is its raw contents with that reading. -/
theorem owns_raw (c : Dev nD) {s : Shape} (a : Memref sig .tc .vmem s .f32) (v : Vec F s .f32) :
    owns (c : Thread nD τ) a fullShare v ⊢ (iprop(∃ f : a.view.ty.Contents (Elt F), ⌜a.view.read (Elt F) f = v⌝ ∗ (a.view.loc (c : Thread nD τ) ↦[a.view.set]{fullShare} f)) : sProp 𝕄) := by
  unfold owns; exact .rfl
theorem raw_owns (c : Dev nD) {s : Shape} (a : Memref sig .tc .vmem s .f32) (f : a.view.ty.Contents (Elt F)) :
    (a.view.loc (c : Thread nD τ) ↦[a.view.set]{fullShare} f : sProp 𝕄) ⊢ owns (c : Thread nD τ) a fullShare (a.view.read (Elt F) f) := by
  unfold owns; iintro H; iexists f; isplitr; · ipureintro; rfl
  iexact H

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves0_0 (c : Dev nD) (t : Fin cfg0.N) : (dat0 V c).leavesExact 0 t = owns (c : Thread nD τ) (st0_0 t) fullShare (iblk0 V c 0 t) := by
  unfold Dat.leavesExact; rw [live0_0 t, after0_0]
theorem leaves0_1 (c : Dev nD) (t : Fin cfg0.N) : (dat0 V c).leavesExact 1 t = owns (c : Thread nD τ) (st0_1 t) fullShare (iblk0 V c 1 t) := by
  unfold Dat.leavesExact; rw [live0_1 t, after0_1]
theorem leaves0_2 (c : Dev nD) (t : Fin cfg0.N) : (dat0 V c).leavesExact 2 t = owns (c : Thread nD τ) (st0_2 t) fullShare (iblk0 V c 2 t) := by
  unfold Dat.leavesExact; rw [live0_2 t, after0_2]
theorem leaves0_3 (c : Dev nD) (t : Fin cfg0.N) : (dat0 V c).leavesExact 3 t = owns (c : Thread nD τ) (st0_3 t) fullShare (iblk0 V c 3 t) := by
  unfold Dat.leavesExact; rw [live0_3 t, after0_3]
theorem leaves0_4_live (c : Dev nD) (t : Fin cfg0.N) (h : 25 ≤ t.val) :
    (dat0 V c).leavesExact 4 t = owns (c : Thread nD τ) (st0_4 t) fullShare (k0_pay3 (iblk0 V c 3 t) (mix V c)) := by
  unfold Dat.leavesExact; rw [live0_4 t h, after0_4]

theorem off_eq (t : Fin cfg0.N) (ht : t.val < 25) : k0_off1 (grid0.coords t) = ![400 * t.val, 0] := by
  rw [hoff1 t, Nat.mod_eq_of_lt ht]

set_option maxHeartbeats 4000000 in
/-- The body at any point. At the first point the projection is computed and panel 0 stored; at a later point below 25
    the projection scratch is read and panel t stored on top of the panels below it; from point 25 on the mixing
    scratch is complete and the output panel is the adjacency panel times it. The output's buffer is handed back
    as found while nothing is stored into it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiS V c (t.val + 1) from rfl,
    show (dat0 V c).Φ t.castSucc = PhiS V c t.val from rfl,
    leaves0_0, leaves0_1, leaves0_2, leaves0_3]
  have hN : t.val < 50 := lt_of_lt_of_eq t.isLt (show cfg0.N = 50 from N_0)
  by_cases h0 : t.val = 0
  · -- the first point
    have hc1 : cond1 (grid0.coords t) := (hcond1 t).mpr h0
    have hc2 : cond2 (grid0.coords t) := (hcond2 t).mpr (by omega)
    have hc3 : ¬cond3 (grid0.coords t) := fun h => by have := (hcond3 t).mp h; omega
    rw [Dat.leavesExact_idle (dat0 V c) 4 t (idle0_4 t (by omega)) (noflush0_4 t (by omega))]
    rw [show PhiS V c t.val = Pipeline.ΦA spec0 c from by rw [h0]; rfl, PhiA0_eq, PhiS_succ]
    have ht : t = pt0 := Fin.ext h0
    iintro ⟨⟨⟨⟨%d0, HS0⟩, ⟨%d1, HS1⟩, Hrest⟩, Hg⟩, Ho, ⟨%e0, H0⟩, ⟨%e1, H1⟩, ⟨%e2, H2⟩, ⟨%e3, H3⟩, H4⟩
    ihave HS1' := (owns_raw c sc1 d1) $$ HS1
    icases HS1' with ⟨%f7, %hf7, HS1⟩
    iapply (run0_A c (grid0.coords t) _ _ _ _ _ _ _ _ _ _ _ _ _ _ hc1 hc2 hc3 (iblk0 V c 0 t) (iblk0 V c 1 t) (iblk0 V c 2 t) (iblk0 V c 3 t) f7 Set.univ _)
    isplitl [H0]; · iexact H0
    isplitl [H1]; · iexact H1
    isplitl [H2]; · iexact H2
    isplitl [H3]; · iexact H3
    isplitl [HS0]; · iexists _; iexact HS0
    isplitl [HS1]; · iexact HS1
    iintro ⟨H0, H1, H2, H3, HS0, HS1⟩
    isplitl [HS0 HS1 Hrest Hg]
    · isplitr [Hg]
      · isplitl [HS0]
        · rw [show proj0 V c = k0_pay1 (iblk0 V c 0 t) (iblk0 V c 1 t) from by rw [ht]; rfl]; iexact HS0
        isplitr [Hrest]
        · iexists _
          isplitl [HS1]
          · iapply (raw_owns c sc1 _); iexact HS1
          · ipureintro
            have hstep := mixUpTo_step V c t (by omega) (k0_off1 (grid0.coords t)) (off_eq t (by omega)) (Facts₀.k0_off1_inb (grid0.coords t) hc2) f7
              (fun y hy => by rw [h0] at hy; simp at hy)
            rw [show mixBlk V c t = k0_pay2 (iblk0 V c 3 t) (k0_pay1 (iblk0 V c 0 t) (iblk0 V c 1 t)) (iblk0 V c 2 t) from by
              unfold mixBlk proj0; rw [ht]] at hstep
            exact hstep
        · iexact Hrest
      · iexact Hg
    isplitl [Ho]; · iexact Ho
    isplitl [H0]; · iexact H0
    isplitl [H1]; · iexact H1
    isplitl [H2]; · iexact H2
    isplitl [H3]; · iexact H3
    iexact H4
  · by_cases h25 : t.val < 25
    · -- a later point of the first phase
      have hc1 : ¬cond1 (grid0.coords t) := fun h => h0 ((hcond1 t).mp h)
      have hc2 : cond2 (grid0.coords t) := (hcond2 t).mpr h25
      have hc3 : ¬cond3 (grid0.coords t) := fun h => by have := (hcond3 t).mp h; omega
      rw [Dat.leavesExact_idle (dat0 V c) 4 t (idle0_4 t h25) (noflush0_4 t h25)]
      rw [PhiS_pos V c t.val h0, PhiS_succ]
      iintro ⟨⟨⟨HS0, ⟨%f, HS1, %hmix⟩, Hrest⟩, Hg⟩, Ho, ⟨%e0, H0⟩, ⟨%e1, H1⟩, ⟨%e2, H2⟩, ⟨%e3, H3⟩, H4⟩
      ihave HS1' := (owns_raw c sc1 f) $$ HS1
      icases HS1' with ⟨%f7, %hf7, HS1⟩
      iapply (run0_B c (grid0.coords t) _ _ _ _ _ _ _ _ _ _ _ _ _ _ hc1 hc2 hc3 (iblk0 V c 2 t) (iblk0 V c 3 t) (proj0 V c) f7 Set.univ _)
      isplitl [H2]; · iexact H2
      isplitl [H3]; · iexact H3
      isplitl [HS0]; · iexact HS0
      isplitl [HS1]; · iexact HS1
      iintro ⟨H2, H3, HS0, HS1⟩
      isplitl [HS0 HS1 Hrest Hg]
      · isplitr [Hg]
        · isplitl [HS0]; · iexact HS0
          isplitr [Hrest]
          · iexists _
            isplitl [HS1]
            · iapply (raw_owns c sc1 _); iexact HS1
            · ipureintro
              exact mixUpTo_step V c t h25 (k0_off1 (grid0.coords t)) (off_eq t h25) (Facts₀.k0_off1_inb (grid0.coords t) hc2) f7 (hf7 ▸ hmix)
          · iexact Hrest
        · iexact Hg
      isplitl [Ho]; · iexact Ho
      isplitl [H0]; · iexact H0
      isplitl [H1]; · iexact H1
      isplitl [H2]; · iexact H2
      isplitl [H3]; · iexact H3
      iexact H4
    · -- the second phase
      have hc1 : ¬cond1 (grid0.coords t) := fun h => h0 ((hcond1 t).mp h)
      have hc2 : ¬cond2 (grid0.coords t) := fun h => h25 ((hcond2 t).mp h)
      have hc3 : cond3 (grid0.coords t) := (hcond3 t).mpr (by omega)
      rw [leaves0_4_live V c t (by omega)]
      rw [PhiS_pos V c t.val h0, PhiS_succ]
      iintro ⟨⟨⟨HS0, ⟨%f, HS1, %hmix⟩, Hrest⟩, Hg⟩, Ho, ⟨%e0, H0⟩, ⟨%e1, H1⟩, ⟨%e2, H2⟩, ⟨%e3, H3⟩, ⟨%e4, H4⟩⟩
      obtain rfl : f = mix V c := mixUpTo_full V c t.val (by omega) f hmix
      iapply (run0_C c (grid0.coords t) _ _ _ _ _ _ _ _ _ _ _ _ _ _ hc1 hc2 hc3 (iblk0 V c 3 t) (mix V c) Set.univ _)
      isplitl [H3]; · iexact H3
      isplitl [HS1]; · iexact HS1
      isplitl [H4]; · iexists _; iexact H4
      iintro ⟨H3, HS1, H4⟩
      isplitl [HS0 HS1 Hrest Hg]
      · isplitr [Hg]
        · isplitl [HS0]; · iexact HS0
          isplitr [Hrest]
          · iexists _
            isplitl [HS1]; · iexact HS1
            ipureintro; exact fun _ _ => rfl
          · iexact Hrest
        · iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The second kernel of the graph autoencoder: one 400-row panel of the Gram matrix mu muᵀ per grid point.

  At each of the 25 points the body reads the 400 x 32 panel of mu from the first window's staging buffer,
  reads all of mu (10000 x 32) from the second window's, and stores their product, contracting the second
  axis of both, over the whole of the third window's 400 x 10000 staging buffer. Nothing else is touched:
  there is no branch and no scratch, so the region invariant and the core's debts pass through unread.

  Three facts are proved, for any float instance:
    * the body's run: with the two inputs at given contents and the output buffer at anything, the inputs are
      left as found and the output holds the product of the two (one store through the whole buffer: what it
      leaves is its payload, whatever was there before);
    * each input window's current staging buffer holds its block of mu at every point: the panel window is
      fetched at each point; the whole-array window is fetched once, at the first point, and afterwards its
      block index does not move and the body leaves it in place;
    * hence the pipeline's body obligation for the second kernel's proof data at every point.
-/
import proofs.«161115_g32409823216073_cont_9to1_1175_24_alg».proof.Proof.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second kernel's body: one panel of the Gram matrix -/

/-- The offsets of a whole-buffer access of a rank-two buffer are all zero. -/
private theorem off00 : (![0, 0] : Fin 2 → Nat) = fun _ => 0 := by funext a; fin_cases a <;> rfl

/-- The whole output panel as a rectangle: the one store of the body is through it. -/
abbrev r1w : Rect S400x10000 := Rect.unit (s := S400x10000) ![0, 0] S400x10000.size inb_S400x10000_S400x10000_0_0

/-- That one store covers the panel. -/
theorem cover1_2 (p0 : Vec F S400x10000 .f32) (y : S400x10000.Idx) :
    ∃ pc ∈ ([⟨r1w, p0⟩] : List (View.Piece (Elt F) S400x10000 .f32)), y ∈ pc.1.set :=
  ⟨_, List.mem_singleton_self _, View.mem_set_unit_zero off00 inb_S400x10000_S400x10000_0_0 y⟩

/-- A load of a whole buffer through the full rectangle at zero offsets reads the buffer's contents. -/
private theorem readAt_whole_400x32 {κ : Kind} {sp : Space} (v : View sig κ sp S400x32 .f32) (f : v.ty.Contents (Elt F)) :
    v.readAt (Elt F) (Rect.unit (s := S400x32) ![0, 0] S400x32.size inb_S400x32_S400x32_0_0).toLoadRect f = v.read (Elt F) f :=
  View.ld_unit_zero off00 inb_S400x32_S400x32_0_0 (v.read (Elt F) f)

/-- The same for the buffer that holds all of mu. -/
private theorem readAt_whole_10000x32 {κ : Kind} {sp : Space} (v : View sig κ sp S10000x32 .f32) (f : v.ty.Contents (Elt F)) :
    v.readAt (Elt F) (Rect.unit (s := S10000x32) ![0, 0] S10000x32.size inb_S10000x32_S10000x32_0_0).toLoadRect f = v.read (Elt F) f :=
  View.ld_unit_zero off00 inb_S10000x32_S10000x32_0_0 (v.read (Elt F) f)

set_option maxHeartbeats 1000000 in
/-- The body on whole staging memrefs: with the panel of mu in the first and all of mu in the second, and
    the third at anything, it leaves the first two as found and the third at the panel times mu transposed
    (the product is the skeleton's payload: both operands contracted along their second axis). -/
theorem run1 (c : Dev nD) (i : grid1.Coords) (arg1 : Memref sig .tc .vmem S400x32 .f32) (harg1 : arg1.IsWhole) (arg2 : Memref sig .tc .vmem S10000x32 .f32) (harg2 : arg2.IsWhole) (arg3 : Memref sig .tc .vmem S400x10000 .f32) (harg3 : arg3.IsWhole)
    (x0 : Vec F S400x32 .f32) (x1 : Vec F S10000x32 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1__gram_body i arg1 harg1 arg2 harg2 arg3 harg3) K := by
  simp only [cc1__gram_body_eq_skeleton]; unfold cc1__gram_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  refine (View.canon_unit_zero off00 inb_S400x10000_S400x10000_0_0 _).trans ?_
  rw [readAt_whole_400x32, readAt_whole_10000x32]

/-! ## The second kernel's proof data, read field by field -/

/-- The arrays are the region's entry contents. -/
theorem A_eq1 (c : Dev nD) (w : Fin cfg1.W) : (dat1 V c).A w = V c (Pipeline.arrRef spec1 w) := by
  dsimp only [dat1]

/-- What the body leaves in each window's staging buffer: the inputs' blocks in place, the output's at the
    product of the two. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by
  dsimp only [dat1]

/-- The panel window's current staging buffer holds the panel of mu of the point, at every point: it is
    fetched at each. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The whole-array window's staging buffer holds all of mu at every point: fetched at the first point, and
    the body leaves it in place, its block index never moving. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation at a generic point -/

/-- What the body is handed at a point: the invariant, the core's debts, and the three current staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold the panel and all of mu, so the body's run applies;
    the invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run1 c _ _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Share1.lean ====
/-
  The second kernel's arrays when two of its windows read ONE array.

  The second kernel is handed mu twice: its row-panel window and its whole-matrix window both sit on mu's
  buffer, and its third window is the output's buffer. A core's unscoped buffers give the pipeline the DISTINCT
  buffers behind the windows' arrays — here two, mu's and the output's — each whole at the full share. The proof
  data wants one points-to per WINDOW — here three. The bridge is the share algebra: the full share is the sum of
  its left and right halves, so mu's buffer at the full share is the same resource as mu's buffer at the left half
  beside mu's buffer at the right half, at the same contents. The panel window takes the left half, the whole-matrix
  window the right half; both only read. The output window keeps its buffer at the full share.

    entry:  mu ↦{1} M ∗ out ↦{1} O          ⊢  mu ↦{½ₗ} M ∗ mu ↦{½ᵣ} M ∗ out ↦{1} O
    exit:   mu ↦{½ₗ} M ∗ mu ↦{½ᵣ} M ∗ out ↦{1} O'  ⊢  mu ↦{1} M ∗ out ↦{1} O'

  At exit the two input windows still hold M, since an input window's array is never written back; O' is what
  the 25 write-backs left in the output's buffer.
-/
import proofs.«161115_g32409823216073_cont_9to1_1175_24_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The two sides, written out -/

/-- Three windows, two buffers: the panel window and the whole-matrix window both sit on mu's buffer. -/
theorem arrRefs1 : Finset.univ.image (Pipeline.arrRef spec1) = {main_v2, main_v4} := by decide

/-- The distinct buffers behind the second kernel's arrays: mu's and the output's, each whole at the full share. -/
theorem arrBufs1_eq (c : Dev nD) (V' : (b : Ref sig .tc) → Buf (Elt F) ((c : Thread nD τ).loc b)) :
    (Pipeline.arrBufs spec1 c V' : sProp 𝕄)
      = iprop((((c : Thread nD τ).loc main_v2) ↦{fullShare} V' main_v2) ∗ (((c : Thread nD τ).loc main_v4) ↦{fullShare} V' main_v4)) := by
  unfold Pipeline.arrBufs
  rw [arrRefs1, bigSep_insert (by decide), bigSep_singleton]; rfl

/-- The shares the three windows hold their arrays at: the two readers of mu its two halves, the output all. -/
theorem dat1_share_0 (c : Dev nD) : (dat1 V c).share 0 = fullShare.left := by
  unfold Dat.share; dsimp only [dat1]; rfl
theorem dat1_share_1 (c : Dev nD) : (dat1 V c).share 1 = fullShare.right := by
  unfold Dat.share; dsimp only [dat1]; rfl
theorem dat1_share_2 (c : Dev nD) : (dat1 V c).share 2 = fullShare := by
  unfold Dat.share; dsimp only [dat1]; rfl

/-- The three windows' arrays at contents `G`: every array is a whole buffer, so each window's element set is
    all of its buffer; windows 0 and 1 name mu's buffer, window 2 the output's. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v2) ↦{fullShare.left} G 0) ∗ (((c : Thread nD τ).loc main_v2) ↦{fullShare.right} G 1)
          ∗ (((c : Thread nD τ).loc main_v4) ↦{fullShare} G 2)) := by
  unfold Dat.arrays
  -- the two windows on mu have one and the same element set, so one rewrite turns both into the whole buffer
  rw [bigSep_W1, (arr_whole1 0).set_eq_univ, (arr_whole1 2).set_eq_univ, dat1_share_0, dat1_share_1, dat1_share_2]

/-! ## Entry and exit -/

/-- ENTRY: the two buffers behind the second kernel's arrays, whole at the full share at the entry contents, are
    its three windows' arrays at the proof data's entry contents — mu's buffer as its two half shares. -/
theorem arrays1_split (c : Dev nD) :
    (Pipeline.arrBufs spec1 c (V c) : sProp 𝕄) ⊢ (dat1 V c).arrays ((dat1 V c).arrAt · 0) := by
  rw [arrBufs1_eq, arrays1_eq]
  -- before any write-back each window's array holds the entry contents of the buffer it names
  show iprop((((c : Thread nD τ).loc main_v2) ↦{fullShare} V c main_v2) ∗ (((c : Thread nD τ).loc main_v4) ↦{fullShare} V c main_v4))
    ⊢ (iprop((((c : Thread nD τ).loc main_v2) ↦{fullShare.left} V c main_v2) ∗ (((c : Thread nD τ).loc main_v2) ↦{fullShare.right} V c main_v2)
          ∗ (((c : Thread nD τ).loc main_v4) ↦{fullShare} V c main_v4)) : sProp 𝕄)
  iintro ⟨Hmu, Hout⟩
  -- 1 = ½ₗ + ½ᵣ on mu's buffer
  ihave Hmu := (pointsTo_share (PosShare.mem_left_op_right fullShare)).1 $$ Hmu
  icases Hmu with ⟨Hl, Hr⟩
  isplitl [Hl]; · iexact Hl
  isplitl [Hr]; · iexact Hr
  iexact Hout

/-- EXIT: the three windows' arrays at what the pipeline leaves are the two buffers whole at the full share, at any
    contents `V'` that has mu's buffer as entered and the output's buffer at what the write-backs left. -/
theorem arrays1_join (c : Dev nD) (V' : (b : Ref sig .tc) → Buf (Elt F) ((c : Thread nD τ).loc b))
    (h2 : V' main_v2 = V c main_v2) (h4 : V' main_v4 = (dat1 V c).arrAt 2 cfg1.N) :
    (dat1 V c).arrays ((dat1 V c).arrAt · cfg1.N) ⊢ (Pipeline.arrBufs spec1 c V' : sProp 𝕄) := by
  -- an input window's array is never written back: after all the points both readers still see mu as entered
  have e0 : (dat1 V c).arrAt 0 cfg1.N = V c main_v2 := (dat1 V c).arrAt_in 0 rfl _
  have e1 : (dat1 V c).arrAt 1 cfg1.N = V c main_v2 := (dat1 V c).arrAt_in 1 rfl _
  rw [arrBufs1_eq, arrays1_eq, h2, h4]
  beta_reduce
  rw [e0, e1]
  iintro ⟨Hl, Hr, Hout⟩
  isplitl [Hl Hr]
  · -- ½ₗ + ½ᵣ = 1 on mu's buffer, the two halves at the same contents
    iapply (pointsTo_share (PosShare.mem_left_op_right fullShare)).2
    isplitl [Hl]; · iexact Hl
    iexact Hr
  iexact Hout

end Cert.KernelIdeal.Hand

end
-- ==== Proof.Run.lean ====
/-
  @main as four items — join the two weight matrices, the first kernel, slice its output into means and
  log-variances, the second kernel — and what every unscoped buffer holds between them: the launch memory; then the
  joined weights written; then the first kernel's output array at what its write-backs leave; then the two slices
  written; then the decoder's array at what the second kernel's write-backs leave. Each kernel is entered from the
  buffers at the contents before it and left at the contents after it; the generator register goes into a kernel's
  invariant and comes back; no core owes anything. The second kernel reads the array of means through two windows,
  which hold it at its two half shares and give it back whole. The frame — every argument array ends as launched —
  follows for any float instance.
-/
import proofs.«161115_g32409823216073_cont_9to1_1175_24_alg».proof.Proof.Data
import proofs.«161115_g32409823216073_cont_9to1_1175_24_alg».proof.Proof.Obl0
import proofs.«161115_g32409823216073_cont_9to1_1175_24_alg».proof.Proof.Body1
import proofs.«161115_g32409823216073_cont_9to1_1175_24_alg».proof.Proof.Share1
import proofs.«161115_g32409823216073_cont_9to1_1175_24_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- The first kernel's entry contents: the launch memory after the weights are joined. -/
abbrev E1 : (c : Dev nD) → (b : Ref sig .tc) → Buf (Elt F) ((c : Thread nD τ).loc b) := fun c b => Gen.V1 m c b

/-- What the first kernel leaves in its output array. -/
def out2 (c : Dev nD) : Buf (Elt F) ((c : Thread nD τ).loc main_v1) := (dat0 (E1 m) c).arrAt 4 cfg0.N

/-- After the first kernel, and after the two slices. -/
abbrev X2 (c : Dev nD) : Valuation τ sig (Elt F) := Function.update (Gen.V1 m c) main_v1 (out2 m c)
abbrev X3 (c : Dev nD) : Valuation τ sig (Elt F) := StableHlo.after hostOps1 (X2 m c)
/-- The second kernel's entry contents. -/
abbrev E3 : (c : Dev nD) → (b : Ref sig .tc) → Buf (Elt F) ((c : Thread nD τ).loc b) := fun c b => X3 m c b

/-- What the second kernel leaves in its output array. -/
def out4 (c : Dev nD) : Buf (Elt F) ((c : Thread nD τ).loc main_v4) := (dat1 (E3 m) c).arrAt 2 cfg1.N

/-- What the two kernels leave, as the table the generated valuations read. -/
def outs : Gen.Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r))
      (fun r c => Classical.arbitrary _) main_v1 (out2 m)) main_v4 (out4 m)

theorem outs_v1 (n : ℕ) (c : Dev nD) : outs m n main_v1 c = out2 m c := by
  unfold outs
  rw [Function.update_of_ne (show (main_v1 : Ref sig .tc) ≠ main_v4 by decide), Function.update_self]

theorem outs_v4 (n : ℕ) (c : Dev nD) : outs m n main_v4 c = out4 m c := by
  unfold outs
  rw [Function.update_self]

theorem V2_eq (c : Dev nD) : Gen.V2 m (outs m) c = X2 m c := by
  show Function.update (Gen.V1 m c) main_v1 (outs m 2 main_v1 c) = _
  rw [outs_v1]

theorem V3_eq (c : Dev nD) : Gen.V3 m (outs m) c = X3 m c := congrArg (StableHlo.after hostOps1) (V2_eq m c)

/-! ## The proof data family and what rides beside the buffers -/

def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
abbrev L : GSem nD τ sig → Finset Unit := fun _ => ∅
abbrev lv : GSem nD τ sig → Unit → ℕ := fun _ _ => 0
/-- Beside the buffers every item carries the generator register at some state and the core owing nothing. -/
abbrev R (c : Dev nD) : sProp 𝕄 := iprop((∃ r, prngReg c r) ∗ ∃ W, owes (c : Thread nD τ) (0 : CellTallies nD τ sig Unit) W)

/-! ## What each kernel's arrays hold at its exit, against the next valuation -/

theorem hF0 (c : Dev nD) (w : Fin cfg0.W) : (pdats m 0 c).arrAt w cfg0.N = (fun b : Ref sig .tc => Gen.V2 m (outs m) c b) (Pipeline.arrRef spec0 w) := by
  match w with
  | ⟨0, _⟩ => exact ((dat0 (E1 m) c).arrAt_in 0 rfl _).trans ((by dsimp only [dat0] : (dat0 (E1 m) c).A 0 = E1 m c (Pipeline.arrRef spec0 0)).trans (Gen.V2_of m (outs m) c _ (by decide)).symm)
  | ⟨1, _⟩ => exact ((dat0 (E1 m) c).arrAt_in 1 rfl _).trans ((by dsimp only [dat0] : (dat0 (E1 m) c).A 1 = E1 m c (Pipeline.arrRef spec0 1)).trans (Gen.V2_of m (outs m) c _ (by decide)).symm)
  | ⟨2, _⟩ => exact ((dat0 (E1 m) c).arrAt_in 2 rfl _).trans ((by dsimp only [dat0] : (dat0 (E1 m) c).A 2 = E1 m c (Pipeline.arrRef spec0 2)).trans (Gen.V2_of m (outs m) c _ (by decide)).symm)
  | ⟨3, _⟩ => exact ((dat0 (E1 m) c).arrAt_in 3 rfl _).trans ((by dsimp only [dat0] : (dat0 (E1 m) c).A 3 = E1 m c (Pipeline.arrRef spec0 3)).trans (Gen.V2_of m (outs m) c _ (by decide)).symm)
  | ⟨4, _⟩ =>
    show (dat0 (E1 m) c).arrAt 4 cfg0.N = Function.update (Gen.V1 m c) (Proc.devRef .tc main_v1) (outs m 2 main_v1 c) (Proc.devRef .tc main_v1)
    rw [Function.update_self, outs_v1]; rfl

theorem hrest0 (c : Dev nD) : ∀ b, b ∉ Finset.univ.image (Pipeline.arrRef spec0) → (fun b : Ref sig .tc => Gen.V2 m (outs m) c b) b = E1 m c b :=
  fun b hb => Gen.V2_of m (outs m) c b (by
    intro h; rw [List.mem_singleton] at h; subst h
    exact hb (Finset.mem_image.mpr ⟨4, Finset.mem_univ _, rfl⟩))

set_option backward.isDefEq.respectTransparency.types false in
/-- THE FIRST KERNEL as an item of @main: entered from every unscoped buffer at the contents after the weights are
    joined, left with its output array at what its write-backs leave; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from PhiS_out (E1 m) c 49).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second kernel's exit contents -/

theorem V4_v2 (c : Dev nD) : (fun b : Ref sig .tc => Gen.V4 m (outs m) c b) main_v2 = E3 m c main_v2 :=
  (Gen.V4_of m (outs m) c main_v2 (by decide)).trans (congrFun (V3_eq m c) _)

theorem V4_v4 (c : Dev nD) : (fun b : Ref sig .tc => Gen.V4 m (outs m) c b) main_v4 = (dat1 (E3 m) c).arrAt 2 cfg1.N := by
  show Function.update (Gen.V3 m (outs m) c) (Proc.devRef .tc main_v4) (outs m 4 main_v4 c) (Proc.devRef .tc main_v4) = _
  rw [Function.update_self, outs_v4]; rfl

theorem rest1_congr (c : Dev nD) :
    (Pipeline.unscopedRest (Ix := Unit) (Name := ℕ) (U := UR sig nD τ) (Lvl := ℕ) spec1 c (E3 m c) : sProp 𝕄)
      = Pipeline.unscopedRest spec1 c (fun b : Ref sig .tc => Gen.V4 m (outs m) c b) := by
  unfold Pipeline.unscopedRest
  refine bigSep_congr fun b hb => ?_
  have hb' : b ∉ Finset.univ.image (Pipeline.arrRef spec1) := (Finset.mem_sdiff.mp hb).2
  have h4 : b ∉ ([main_v4] : List (Ref sig .tc)) := by
    intro h; rw [List.mem_singleton] at h; subst h
    exact hb' (Finset.mem_image.mpr ⟨2, Finset.mem_univ _, rfl⟩)
  rw [show (fun b : Ref sig .tc => Gen.V4 m (outs m) c b) b = E3 m c b from
    (Gen.V4_of m (outs m) c b h4).trans (congrFun (V3_eq m c) _)]

set_option backward.isDefEq.respectTransparency.types false in
/-- THE SECOND KERNEL as an item of @main: entered from the contents after the two slices, its two input windows
    holding the one array of means at its two half shares; left with the decoder's array at what its write-backs
    leave and the means' buffer whole again. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (unscopedBufs c (E3 m c) : sProp 𝕄)
        ⊢ iprop((pdats m 1 c).arrays ((pdats m 1 c).arrAt · 0) ∗ Pipeline.unscopedRest spec1 c (E3 m c)) := by
      rw [Pipeline.unscopedBufs_split₀ cfgs 1 winFacts₀1.arr_unscoped c (E3 m c)]
      exact sep_mono (arrays1_split (E3 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E3 m c))
        ⊢ (unscopedBufs c (fun b : Ref sig .tc => Gen.V4 m (outs m) c b) : sProp 𝕄) := by
      rw [Pipeline.unscopedBufs_split₀ cfgs 1 winFacts₀1.arr_unscoped c (fun b : Ref sig .tc => Gen.V4 m (outs m) c b), rest1_congr m c]
      exact sep_mono (arrays1_join (E3 m) c _ (V4_v2 m c) (V4_v4 m c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipelines' rounds state at every staging cell. -/
abbrev u₀ : UR sig nD τ := initOf (Pipeline.cells cfgs cellOf_inj) (Pipeline.launchToks cfgs cellOf_inj)

theorem hu₀ : (ownU u₀ : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers, at every boundary. -/
abbrev Es : Fin 3 → Dev nD → sProp 𝕄 := fun _ c => R c

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (Es (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : Es (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME at any float instance: @main runs to the end from any memory, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond (F := F) (Ix := Unit) (U := UR sig nD τ) (Lvl := ℕ) m (emb₁ : Emb (UR sig nD τ) 𝕄) () 𝒱₀ L lv (fun _ _ => rfl) ρ (outs m) (pdats m) 0 (fun _ => (BI.emp : sProp 𝕄)) u₀ hu₀ Es (hE0 ρ) hE2
    (reg0 m) (fun _ => .rfl) (fun _ => .rfl)
    (reg1 m) (fun c => by rw [V3_eq]; exact .rfl) (fun _ => .rfl)

end Cert.KernelIdeal.Hand

end
-- ==== Proof.Final.lean ====
/-
  From blocks to whole arrays, for the two kernels' output windows.

  The first kernel's output has 10000 rows and 64 columns and is written back in 25 panels of 400 rows,
  panel p at grid point 25 + p (before point 25 nothing is written back): so after the run row r is row
  r mod 400 of the panel computed at point 25 + r div 400, which is A's panel r div 400 times H [W2|W3].
  The second kernel's output has 10000 rows and 10000 columns and is written back in 25 panels of 400 rows,
  panel p at grid point p: row r is row r mod 400 of mu's panel r div 400 times mu transposed.
  In both, the panels tile the array, so no entry of it keeps what it held before the run; and an array
  that is only read keeps what it held. Everything is stated for any float instance.
-/
import proofs.«161115_g32409823216073_cont_9to1_1175_24_alg».proof.Proof.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first kernel's output array -/

theorem out_div_lt (y : S10000x64.Idx) : 25 + (y 0).val / 400 < cfg0.N := by
  have h : (y 0).val < 10000 := (y 0).isLt
  rw [show cfg0.N = 50 from N_0]; omega

/-- The first kernel's output after the run: row r is row r % 400 of the panel stored at grid point
    25 + r / 400. -/
def muvarArr (c : Dev nD) : Vec F S10000x64 .f32 := fun y =>
  k0_pay3 (iblk0 V c 3 ⟨25 + (y 0).val / 400, out_div_lt y⟩) (mix V c)
    (ValueIdx.ix2 (n0 := 400) (n1 := 64) ⟨(y 0).val % 400, row_mod_lt y⟩ (y 1))

/-- The output window is written back exactly at the points from 25 on. -/
theorem flush0_4 : ∀ t : Fin cfg0.N, (cfg0.win 4).flush t = true ↔ 25 ≤ t.val :=
  (by decide +kernel : ∀ t : Fin grid0.N, win0_4.flush t = true ↔ 25 ≤ t.val)

/-- The output window's block index at point t: t - 25 along the rows (0 up to point 25), 0 along the
    columns. -/
theorem index0_4 : ∀ t : Fin cfg0.N, win0_4.index t (0 : Fin 2) = t.val - 25 ∧ win0_4.index t (1 : Fin 2) = 0 :=
  (by decide +kernel : ∀ t : Fin grid0.N, win0_4.index t (0 : Fin 2) = t.val - 25 ∧ win0_4.index t (1 : Fin 2) = 0)

/-- What a point from 25 on writes back is its own block of the array: the block's rows are
    400 (t - 25) + p, whose panel is t - 25 and whose row inside the panel is p. -/
theorem flushed0_4 (c : Dev nD) (t : Fin cfg0.N) (ht : 25 ≤ t.val) :
    (dat0 V c).flushed 4 t = ((cfg0.win 4).blk t).view.read (Elt F) (muvarArr V c) := by
  obtain ⟨e0, e1⟩ := index0_4 t
  have hN : t.val < 50 := lt_of_lt_of_eq t.isLt N_0
  show (cfg0.win 4).cut (grid0.coords t) ((dat0 V c).after 4 t) = _
  dsimp only [dat0]
  funext j
  show k0_pay3 (iblk0 V c 3 t) (mix V c) j = muvarArr V c (((cfg0.win 4).blk t).view.emb j)
  have hj0 : (j 0).val < 400 := (j 0).isLt
  have hj1 : (j 1).val < 64 := (j 1).isLt
  have hr : ((((cfg0.win 4).blk t).view.emb j) 0).val = win0_4.index t (0 : Fin 2) * 400 + 1 * (j 0).val := rfl
  have hc : ((((cfg0.win 4).blk t).view.emb j) 1).val = win0_4.index t (1 : Fin 2) * 64 + 1 * (j 1).val := rfl
  generalize ((cfg0.win 4).blk t).view.emb j = y at hr hc ⊢
  have hpt : (⟨25 + (y 0).val / 400, out_div_lt y⟩ : Fin cfg0.N) = t :=
    Fin.ext (by show 25 + (y 0).val / 400 = t.val; rw [hr, e0]; omega)
  have hix : ValueIdx.ix2 (n0 := 400) (n1 := 64) ⟨(y 0).val % 400, row_mod_lt y⟩ (y 1) = j := by
    funext a; apply Fin.ext
    match a with
    | ⟨0, _⟩ => show (y 0).val % 400 = (j 0).val; rw [hr, e0]; omega
    | ⟨1, _⟩ => show (y 1).val = (j 1).val; rw [hc, e1]; omega
  show _ = k0_pay3 (iblk0 V c 3 ⟨25 + (y 0).val / 400, out_div_lt y⟩) (mix V c)
    (ValueIdx.ix2 (n0 := 400) (n1 := 64) ⟨(y 0).val % 400, row_mod_lt y⟩ (y 1))
  rw [hpt, hix]

/-- An index lies in point t's block iff each coordinate lies in the block's range on its axis. -/
theorem mem_blk0_4 (t : Fin cfg0.N) (i : S10000x64.Idx) :
    i ∈ ((cfg0.win 4).blk t).view.set ↔ ∀ a : Fin 2, win0_4.index t a * S400x64.size a ≤ (i a).val ∧ (i a).val < win0_4.index t a * S400x64.size a + S400x64.size a := by
  show i ∈ ((View.whole main_v1).slice (win0_4.rect t)).set ↔ _
  rw [View.set_slice_whole, Rect.mem_set_unit]
  exact Iff.rfl

/-- Row r lies in the block written back at point 25 + r / 400. -/
theorem cover0_4 (i : S10000x64.Idx) :
    ∃ t : Fin cfg0.N, (cfg0.win 4).flush t = true ∧ i ∈ ((cfg0.win 4).blk t).view.set := by
  have hi0 : (i 0).val < 10000 := (i 0).isLt
  have hi1 : (i 1).val < 64 := (i 1).isLt
  obtain ⟨e0, e1⟩ := index0_4 ⟨25 + (i 0).val / 400, out_div_lt i⟩
  have e0' : win0_4.index ⟨25 + (i 0).val / 400, out_div_lt i⟩ (0 : Fin 2) = (i 0).val / 400 := by
    rw [e0]; show 25 + (i 0).val / 400 - 25 = (i 0).val / 400; omega
  refine ⟨⟨25 + (i 0).val / 400, out_div_lt i⟩, (flush0_4 _).mpr (by show 25 ≤ 25 + (i 0).val / 400; omega), ?_⟩
  rw [mem_blk0_4]
  intro a
  match a with
  | ⟨0, _⟩ =>
    show win0_4.index ⟨25 + (i 0).val / 400, out_div_lt i⟩ (0 : Fin 2) * 400 ≤ (i 0).val
      ∧ (i 0).val < win0_4.index ⟨25 + (i 0).val / 400, out_div_lt i⟩ (0 : Fin 2) * 400 + 400
    rw [e0']; omega
  | ⟨1, _⟩ =>
    show win0_4.index ⟨25 + (i 0).val / 400, out_div_lt i⟩ (1 : Fin 2) * 64 ≤ (i 1).val
      ∧ (i 1).val < win0_4.index ⟨25 + (i 0).val / 400, out_div_lt i⟩ (1 : Fin 2) * 64 + 64
    rw [e1]; omega

/-- The first kernel's output after the run. -/
theorem final0 (c : Dev nD) : (dat0 V c).arrAt 4 cfg0.N = muvarArr V c :=
  (dat0 V c).arrAt_eq_of_cover 4 (muvarArr V c) (fun t hf => flushed0_4 V c t ((flush0_4 t).mp hf)) cover0_4

/-! ## The second kernel's output array -/

theorem gram_div_lt (y : S10000x10000.Idx) : (y 0).val / 400 < cfg1.N := by
  have h : (y 0).val < 10000 := (y 0).isLt
  rw [show cfg1.N = 25 from N_1]; omega

theorem gram_mod_lt (y : S10000x10000.Idx) : (y 0).val % 400 < 400 := Nat.mod_lt _ (by decide)

def reconArr (c : Dev nD) : Vec F S10000x10000 .f32 := fun y =>
  k1_pay1 (iblk1 V c 0 ⟨(y 0).val / 400, gram_div_lt y⟩) (iblk1 V c 1 ⟨(y 0).val / 400, gram_div_lt y⟩)
    (ValueIdx.ix2 (n0 := 400) (n1 := 10000) ⟨(y 0).val % 400, gram_mod_lt y⟩ (y 1))

theorem index1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

/-- What point t writes back is its own block of the array: the block's rows are 400 t + p, whose
    panel is t and whose row inside the panel is p. -/
theorem flushed1_2 (c : Dev nD) (t : Fin cfg1.N) :
    (dat1 V c).flushed 2 t = ((cfg1.win 2).blk t).view.read (Elt F) (reconArr V c) := by
  obtain ⟨e0, e1⟩ := index1_2 t
  have hN : t.val < 25 := lt_of_lt_of_eq t.isLt N_1
  show (cfg1.win 2).cut (grid1.coords t) ((dat1 V c).after 2 t) = _
  dsimp only [dat1]
  funext j
  show k1_pay1 (iblk1 V c 0 t) (iblk1 V c 1 t) j = reconArr V c (((cfg1.win 2).blk t).view.emb j)
  have hj0 : (j 0).val < 400 := (j 0).isLt
  have hj1 : (j 1).val < 10000 := (j 1).isLt
  have hr : ((((cfg1.win 2).blk t).view.emb j) 0).val = win1_2.index t (0 : Fin 2) * 400 + 1 * (j 0).val := rfl
  have hc : ((((cfg1.win 2).blk t).view.emb j) 1).val = win1_2.index t (1 : Fin 2) * 10000 + 1 * (j 1).val := rfl
  generalize ((cfg1.win 2).blk t).view.emb j = y at hr hc ⊢
  have hpt : (⟨(y 0).val / 400, gram_div_lt y⟩ : Fin cfg1.N) = t :=
    Fin.ext (by show (y 0).val / 400 = t.val; rw [hr, e0]; omega)
  have hix : ValueIdx.ix2 (n0 := 400) (n1 := 10000) ⟨(y 0).val % 400, gram_mod_lt y⟩ (y 1) = j := by
    funext a; apply Fin.ext
    match a with
    | ⟨0, _⟩ => show (y 0).val % 400 = (j 0).val; rw [hr, e0]; omega
    | ⟨1, _⟩ => show (y 1).val = (j 1).val; rw [hc, e1]; omega
  show _ = k1_pay1 (iblk1 V c 0 ⟨(y 0).val / 400, gram_div_lt y⟩) (iblk1 V c 1 ⟨(y 0).val / 400, gram_div_lt y⟩)
    (ValueIdx.ix2 (n0 := 400) (n1 := 10000) ⟨(y 0).val % 400, gram_mod_lt y⟩ (y 1))
  rw [hpt, hix]

/-- An index lies in point t's block iff each coordinate lies in the block's range on its axis. -/
theorem mem_blk1_2 (t : Fin cfg1.N) (i : S10000x10000.Idx) :
    i ∈ ((cfg1.win 2).blk t).view.set ↔ ∀ a : Fin 2, win1_2.index t a * S400x10000.size a ≤ (i a).val ∧ (i a).val < win1_2.index t a * S400x10000.size a + S400x10000.size a := by
  show i ∈ ((View.whole main_v4).slice (win1_2.rect t)).set ↔ _
  rw [View.set_slice_whole, Rect.mem_set_unit]
  exact Iff.rfl

/-- Row r lies in the block written back at point r / 400. -/
theorem cover_rows1_2 (i : S10000x10000.Idx) :
    ∃ t : Fin cfg1.N, (cfg1.win 2).flush t = true ∧ i ∈ ((cfg1.win 2).blk t).view.set := by
  have hi0 : (i 0).val < 10000 := (i 0).isLt
  have hi1 : (i 1).val < 10000 := (i 1).isLt
  obtain ⟨e0, e1⟩ := index1_2 ⟨(i 0).val / 400, gram_div_lt i⟩
  have e0' : win1_2.index ⟨(i 0).val / 400, gram_div_lt i⟩ (0 : Fin 2) = (i 0).val / 400 := e0
  refine ⟨⟨(i 0).val / 400, gram_div_lt i⟩, flush1_2 _, ?_⟩
  rw [mem_blk1_2]
  intro a
  match a with
  | ⟨0, _⟩ =>
    show win1_2.index ⟨(i 0).val / 400, gram_div_lt i⟩ (0 : Fin 2) * 400 ≤ (i 0).val
      ∧ (i 0).val < win1_2.index ⟨(i 0).val / 400, gram_div_lt i⟩ (0 : Fin 2) * 400 + 400
    rw [e0']; omega
  | ⟨1, _⟩ =>
    show win1_2.index ⟨(i 0).val / 400, gram_div_lt i⟩ (1 : Fin 2) * 10000 ≤ (i 1).val
      ∧ (i 1).val < win1_2.index ⟨(i 0).val / 400, gram_div_lt i⟩ (1 : Fin 2) * 10000 + 10000
    rw [e1]; omega

/-- The second kernel's output after the run. -/
theorem final1 (c : Dev nD) : (dat1 V c).arrAt 2 cfg1.N = reconArr V c :=
  (dat1 V c).arrAt_eq_of_cover 2 (reconArr V c) (fun t _ => flushed1_2 V c t) cover_rows1_2

/-! ## The input windows' arrays -/

/-- An input window's array is never written. -/
theorem kept0 (c : Dev nD) (w : Fin cfg0.W) (hw : w.val < 4) :
    (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by show ¬ n + 4 < 4; omega)
  rw [(dat0 V c).arrAt_in w hin _]
  dsimp only [dat0]

theorem kept1 (c : Dev nD) (w : Fin cfg1.W) (hw : w.val < 2) :
    (dat1 V c).arrAt w cfg1.N = V c (Pipeline.arrRef spec1 w) := by
  have hin : (cfg1.win w).isOut = false := by
    match w, hw with
    | ⟨0, _⟩, _ => rfl
    | ⟨1, _⟩, _ => rfl
    | ⟨n + 2, _⟩, h => exact absurd h (by show ¬ n + 2 < 2; omega)
  rw [(dat1 V c).arrAt_in w hin _]
  dsimp only [dat1]

end Cert.KernelIdeal.Hand

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.PayVal.lean ====
/-
  The values the kernel's two bodies store, and the three array operations @main performs around them, read at one
  entry, over the extended reals.

  * The first body stores three matrix products. `x · W1` at `(p, q)` is `∑ k, x (p, k) * W1 (k, q)`. A panel of
    400 rows of `relu (A · H) · Wc` at `(p, q)` is `∑ l, max (∑ k, A (p, k) * H (k, l)) 0 * Wc (l, q)`: the inner
    product is clipped below at zero entry by entry before the outer one is taken. A panel of `A · G` at `(p, q)` is
    `∑ k, A (p, k) * G (k, q)`. A reshape to the same extents changes nothing, and the zero accumulator adds nothing.
  * The second body stores a panel of a Gram matrix: both factors are contracted along their COLUMNS, so the entry
    `(p, q)` is `∑ l, a (p, l) * b (q, l)`, the inner product of row `p` of one factor with row `q` of the other.
  * Two `32 × 32` matrices set side by side give a `32 × 64` matrix whose column `q` is column `q` of the first when
    `q < 32` and column `q - 32` of the second otherwise; the left and right halves of a `10000 × 64` matrix are its
    columns `q` and `32 + q` for `q < 32`.
-/
import proofs.«161115_g32409823216073_cont_9to1_1175_24_alg».proof.Proof.Gen.KernelIdeal.Skeleton
import proofs.«161115_g32409823216073_cont_9to1_1175_24_alg».proof.Proof.LibPlainDot
import Idealize.ShloMosaic.Lib.ValueIdx
import Idealize.ShloMosaic.Lib.Pipeline.Value
import Idealize.ShloMosaic.Lib.ValueLayout
import Idealize.ShloMosaic.PureOps.Ideal.Laws

namespace Cert.KernelIdeal.PayVal

open Cert.KernelIdeal Cert.KernelIdeal.Gen Idealize.ShloMosaic Idealize.ShloMosaic.ValueIdx

/-! ## A product of rows with rows

`[M, K] × [N, K] → [M, N]`: the left factor's columns are contracted with the right factor's COLUMNS, so the entry
`(p, q)` pairs row `p` of the left factor with row `q` of the right one. Nothing depends on the extents. -/

section RowsByRows
variable {M K N : ℕ}

/-- The left factor is read in the output's row. -/
theorem rr_lhs_0 (p : Fin M) (q : Fin N) (k : (DotDims.transposedRhs M K N).contr.Idx) :
    ((DotDims.transposedRhs M K N).lhsIdx (ix2 p q) k 0).val = p.val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left factor's column is the contraction position. -/
theorem rr_lhs_1 (p : Fin M) (q : Fin N) (k : (DotDims.transposedRhs M K N).contr.Idx) :
    ((DotDims.transposedRhs M K N).lhsIdx (ix2 p q) k 1).val = (k ⟨0, Nat.one_pos⟩).val :=
  (DotDims.transposedRhs M K N).lhsIdx_val_of_single (cl := 1) rfl (ix2 p q) k

/-- The right factor is read in the row named by the output's COLUMN. -/
theorem rr_rhs_0 (p : Fin M) (q : Fin N) (k : (DotDims.transposedRhs M K N).contr.Idx) :
    ((DotDims.transposedRhs M K N).rhsIdx (ix2 p q) k 0).val = q.val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right factor's column is the contraction position too. -/
theorem rr_rhs_1 (p : Fin M) (q : Fin N) (k : (DotDims.transposedRhs M K N).contr.Idx) :
    ((DotDims.transposedRhs M K N).rhsIdx (ix2 p q) k 1).val = (k ⟨0, Nat.one_pos⟩).val :=
  (DotDims.transposedRhs M K N).rhsIdx_val_of_single (cr := 1) rfl (ix2 p q) k

/-- At output `(p, q)` and contraction position `k` the left factor is read at `(p, k)`. -/
theorem rr_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => exact rr_lhs_0 p q _
  | ⟨1, _⟩ => exact (rr_lhs_1 p q _).trans hk

/-- … and the right factor at `(q, k)`. -/
theorem rr_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => exact rr_rhs_0 p q _
  | ⟨1, _⟩ => exact (rr_rhs_1 p q _).trans hk

/-- The contraction sum re-indexed by the one contracted coordinate. -/
theorem rr_sum {β : Type*} [AddCommMonoid β] (f : (⟨2, ![M, K]⟩ : Shape).Idx → (⟨2, ![N, K]⟩ : Shape).Idx → β)
    (p : Fin M) (q : Fin N) :
    ∑ k : (DotDims.transposedRhs M K N).contr.Idx,
        f ((DotDims.transposedRhs M K N).lhsIdx (ix2 p q) k) ((DotDims.transposedRhs M K N).rhsIdx (ix2 p q) k)
      = ∑ k : Fin K, f (ix2 p k) (ix2 q k) := by
  rw [← Equiv.sum_comp (contrEquiv1 (DotDims.transposedRhs M K N) K rfl rfl).symm]
  refine Finset.sum_congr rfl fun k _ => ?_
  rw [rr_lhsIdx, rr_rhsIdx]

variable {φ₁ φ₂ : FTy}

/-- The product of rows with rows into the zero accumulator, at `(p, q)`: `∑ k, l (p, k) * r (q, k)`. -/
theorem matmul_rr_zero_apply (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂)
    (p : Fin M) (q : Fin N) :
    matmul d prec l r (constant ⟨2, ![M, N]⟩ .f32 0x00000000#32) (ix2 p q) = ∑ k : Fin K, l (ix2 p k) * r (ix2 q k) := by
  subst hd
  simp only [matmul]
  rw [Ideal.matmul_constant_zero_apply]
  exact rr_sum (fun a b => l a * r b) p q

end RowsByRows

/-! ## The first body's three stored values -/

/-- `x · W1` at `(p, q)`. -/
theorem pay1_apply (x : Vec Ideal S10000x128 .f32) (w1 : Vec Ideal S128x32 .f32) (p : Fin 10000) (q : Fin 32) :
    k0_pay1 (F := Ideal) x w1 (ix2 p q) = ∑ k : Fin 128, x (ix2 p k) * w1 (ix2 k q) := by
  unfold k0_pay1
  refine (congrFun (shapeCast_self _ _) (ix2 p q)).trans ?_
  exact Cert.PlainDot.matmul_zero_apply _ rfl none x w1 p q

/-- A panel of `relu (A · H) · Wc` at `(p, q)`: the inner product at `(p, l)`, clipped below at zero (the word of
    all zero bits is the number zero), times `Wc (l, q)`, summed over `l`. -/
theorem pay2_apply (a : Vec Ideal S400x10000 .f32) (h : Vec Ideal S10000x32 .f32) (wc : Vec Ideal S32x64 .f32) (p : Fin 400) (q : Fin 64) :
    k0_pay2 (F := Ideal) a h wc (ix2 p q) = ∑ l : Fin 32, max (∑ k : Fin 10000, a (ix2 p k) * h (ix2 k l)) 0 * wc (ix2 l q) := by
  unfold k0_pay2
  refine (congrFun (shapeCast_self _ _) (ix2 p q)).trans ?_
  refine (Cert.PlainDot.matmul_zero_apply _ rfl none _ _ p q).trans ?_
  refine Finset.sum_congr rfl fun l _ => ?_
  refine congrArg₂ (· * ·) ?_ (congrFun (shapeCast_self wc _) (ix2 l q))
  exact congrArg₂ max (Cert.PlainDot.matmul_zero_apply _ rfl none a h p l) Ideal.ofBits_zero_f32

/-- A panel of `A · G` at `(p, q)`. -/
theorem pay3_apply (a : Vec Ideal S400x10000 .f32) (g : Vec Ideal S10000x64 .f32) (p : Fin 400) (q : Fin 64) :
    k0_pay3 (F := Ideal) a g (ix2 p q) = ∑ k : Fin 10000, a (ix2 p k) * g (ix2 k q) := by
  unfold k0_pay3
  exact Cert.PlainDot.matmul_zero_apply _ rfl none a g p q

/-! ## The second body's stored value -/

/-- A panel of the Gram matrix at `(p, q)`: row `p` of the panel against row `q` of the whole factor. -/
theorem gram_apply (a : Vec Ideal S400x32 .f32) (b : Vec Ideal S10000x32 .f32) (p : Fin 400) (q : Fin 10000) :
    k1_pay1 (F := Ideal) a b (ix2 p q) = ∑ l : Fin 32, a (ix2 p l) * b (ix2 q l) := by
  unfold k1_pay1
  refine (matmul_rr_zero_apply _ rfl none _ _ p q).trans ?_
  refine Finset.sum_congr rfl fun l _ => ?_
  exact congrArg₂ (· * ·) (congrFun (shapeCast_self a _) (ix2 p l)) (congrFun (shapeCast_self b _) (ix2 q l))

/-! ## Side by side, and the two halves -/

/-- Two `32 × 32` matrices side by side: column `q` comes from the first when `q < 32`, else it is column `q - 32`
    of the second; the row is kept. -/
theorem concat_apply (a b : Vec Ideal S32x32 .f32) (l : Fin 32) (q : Fin 64) :
    (concatenate S32x64 1 [⟨S32x32, a⟩, ⟨S32x32, b⟩] Facts₀.concatenates_S32x32_S32x32_S32x64_d1 : Vec Ideal S32x64 .f32) (ix2 l q)
      = if h : q.val < 32 then a (ix2 l ⟨q.val, h⟩) else b (ix2 l ⟨q.val - 32, by have := q.isLt; omega⟩) := by
  split
  · next h =>
    exact concatenate_pair_apply_left 1 a b _ (ix2 l q) rfl (ix2 l ⟨q.val, h⟩) (fun bx => by
      match bx with
      | ⟨0, _⟩ => rfl
      | ⟨1, _⟩ => rfl)
  · next h =>
    exact concatenate_pair_apply_right 1 a b _ (ix2 l q) rfl rfl (ix2 l ⟨q.val - 32, by have := q.isLt; omega⟩) (fun bx hne => by
      match bx with
      | ⟨0, _⟩ => rfl
      | ⟨1, _⟩ => exact absurd rfl hne) (by show q.val - 32 + 32 = q.val; omega)

/-- The left half of a `10000 × 64` matrix: its column `q`, for `q < 32`. -/
theorem slice_lo_apply (v : Vec Ideal S10000x64 .f32) (p : Fin 10000) (q : Fin 32) :
    (extractStridedSlice S10000x32 ![0, 0] v Facts₀.slices_S10000x64_S10000x32_0_0 : Vec Ideal S10000x32 .f32) (ix2 p q) = v (ix2 p ⟨q.val, by have := q.isLt; omega⟩) :=
  slice2_axis1_apply 0 v _ p q ⟨q.val, by have := q.isLt; omega⟩ (Nat.zero_add _).symm

/-- The right half: its column `32 + q`. -/
theorem slice_hi_apply (v : Vec Ideal S10000x64 .f32) (p : Fin 10000) (q : Fin 32) :
    (extractStridedSlice S10000x32 ![0, 32] v Facts₀.slices_S10000x64_S10000x32_0_32 : Vec Ideal S10000x32 .f32) (ix2 p q) = v (ix2 p ⟨32 + q.val, by have := q.isLt; omega⟩) :=
  slice2_axis1_apply 32 v _ p q ⟨32 + q.val, by have := q.isLt; omega⟩ rfl

end Cert.KernelIdeal.PayVal
-- ==== Proof.Spec.lean ====
/-
  The three-layer graph autoencoder, entry by entry over the extended reals.

  With X : [10000,128], A : [10000,10000], W1 : [128,32], W2, W3 : [32,32]:
    P = X W1,   H = max (A P) 0,   mu = A (H W2),   logvar = A (H W3),   recon = mu muᵀ.
  Every product is written as its plain sum over the one contracted coordinate, so that a product
  computed panel by panel, or against two weight blocks laid side by side, is the same sum at each entry.
-/
import Idealize.ShloMosaic.Lib.ValueIdx
import Idealize.ShloMosaic.PureOps.Ideal

noncomputable section

namespace Cert.Vgae

open Idealize.ShloMosaic Idealize.ShloMosaic.ValueIdx

abbrev SX : Shape := ⟨2, ![10000, 128]⟩
abbrev SA : Shape := ⟨2, ![10000, 10000]⟩
abbrev SW1 : Shape := ⟨2, ![128, 32]⟩
abbrev SW : Shape := ⟨2, ![32, 32]⟩
abbrev SH : Shape := ⟨2, ![10000, 32]⟩

variable (x : FVec Ideal SX .f32) (adj : FVec Ideal SA .f32) (w1 : FVec Ideal SW1 .f32) (w : FVec Ideal SW .f32)

/-- Entry (p, q) of P = X W1. -/
def projAt (p : Fin 10000) (q : Fin 32) : EReal := ∑ k : Fin 128, x (ix2 p k) * w1 (ix2 k q)

/-- Entry (p, q) of H = max (A P) 0. -/
def hiddenAt (p : Fin 10000) (q : Fin 32) : EReal :=
  max (∑ k : Fin 10000, adj (ix2 p k) * projAt x w1 k q) 0

/-- Entry (p, q) of H W for a weight W : [32,32]. -/
def mixAt (p : Fin 10000) (q : Fin 32) : EReal := ∑ l : Fin 32, hiddenAt x adj w1 p l * w (ix2 l q)

/-- Entry (p, q) of A (H W): the layer's output (mu for W = W2, logvar for W = W3). -/
def layerAt (p : Fin 10000) (q : Fin 32) : EReal := ∑ k : Fin 10000, adj (ix2 p k) * mixAt x adj w1 w k q

/-- A (H W) as an array. -/
def layer : FVec Ideal SH .f32 := fun j => layerAt x adj w1 w (j 0) (j 1)

/-- Entry (p, q) of the decoder mu muᵀ: the inner product of rows p and q of mu. -/
def reconAt (p q : Fin 10000) : EReal := ∑ l : Fin 32, layerAt x adj w1 w p l * layerAt x adj w1 w q l

/-- mu muᵀ as an array (W is the mean layer's weight W2). -/
def recon : FVec Ideal SA .f32 := fun j => reconAt x adj w1 w (j 0) (j 1)

end Cert.Vgae

end
-- ==== Proof.Value0.lean ====
/-
  The first kernel's output is the two layers side by side.

  With X the features, A the adjacency, W1 the first weight and Wc = [W2 | W3] the two second-layer weights laid
  side by side, the first kernel computes, entry by entry over the extended reals,
    P = X W1,   G = max (A P) 0 · Wc  (panel by panel, 400 rows at a time),   out = A G  (panel by panel).
  A panel's row i at grid point t is row 400 (t mod 25) + i of A; the whole-array windows are read as they are.
  Column q < 32 of Wc is column q of W2 and column 32 + q is column q of W3, so column q of G is H W2 and column
  32 + q is H W3 with H = max (A P) 0, and the same columns of the output are A (H W2) and A (H W3): the mean
  layer and the log-variance layer. Both sides are the same nested sums at every entry; nothing is rearranged.
-/
import proofs.«161115_g32409823216073_cont_9to1_1175_24_alg».proof.Proof.Data
import proofs.«161115_g32409823216073_cont_9to1_1175_24_alg».proof.Proof.Final
import proofs.«161115_g32409823216073_cont_9to1_1175_24_alg».proof.Proof.PayVal
import proofs.«161115_g32409823216073_cont_9to1_1175_24_alg».proof.Proof.Spec

set_option maxRecDepth 16384

noncomputable section

namespace Cert.KernelIdeal.Hand

open Cert.KernelIdeal Cert.KernelIdeal.Gen Cert.KernelIdeal.PayVal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (V : (c : Dev nD) → (b : Ref sig .tc) → Buf (Elt Ideal) ((c : Thread nD τ).loc b))

/-! ## The arrays the kernel is entered with -/

/-- The features X, the adjacency A, the three weights, and the joined weights' buffer. -/
abbrev featArr (c : Dev nD) : FVec Ideal Cert.Vgae.SX .f32 := V c main_arg0
abbrev adjArr (c : Dev nD) : FVec Ideal Cert.Vgae.SA .f32 := V c main_arg1
abbrev w1Arr (c : Dev nD) : FVec Ideal Cert.Vgae.SW1 .f32 := V c main_arg2
abbrev w2Arr (c : Dev nD) : FVec Ideal Cert.Vgae.SW .f32 := V c main_arg3
abbrev w3Arr (c : Dev nD) : FVec Ideal Cert.Vgae.SW .f32 := V c main_arg4
abbrev wcArr (c : Dev nD) : Vec Ideal S32x64 .f32 := V c main_v0

/-! ## The four input windows, read at an entry -/

/-- The three whole-array windows sit at block index (0, 0) at every grid point. -/
theorem index0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem index0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem index0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The adjacency's panel at point t is panel t mod 25, all its columns. -/
theorem index0_3 : ∀ t : Fin cfg0.N, win0_3.index t (0 : Fin 2) = t.val % 25 ∧ win0_3.index t (1 : Fin 2) = 0 :=
  (by decide +kernel : ∀ t : Fin grid0.N, win0_3.index t (0 : Fin 2) = t.val % 25 ∧ win0_3.index t (1 : Fin 2) = 0)

/-- The features' window holds the features. -/
theorem iblk0_0_apply (c : Dev nD) (t : Fin cfg0.N) (p : Fin 10000) (k : Fin 128) :
    (iblk0 V c 0 t : Vec Ideal S10000x128 .f32) (ix2 p k) = (featArr V c) (ix2 p k) := by
  obtain ⟨e0, e1⟩ := index0_0 t
  show V c main_arg0 (((cfg0.win 0).blk t).view.emb (ix2 p k)) = V c main_arg0 (ix2 p k)
  refine congrArg (V c main_arg0) ?_
  funext a; apply Fin.ext
  match a with
  | ⟨0, _⟩ => show win0_0.index t (0 : Fin 2) * 10000 + 1 * p.val = p.val; rw [e0]; omega
  | ⟨1, _⟩ => show win0_0.index t (1 : Fin 2) * 128 + 1 * k.val = k.val; rw [e1]; omega

/-- The first weight's window holds the first weight. -/
theorem iblk0_1_apply (c : Dev nD) (t : Fin cfg0.N) (k : Fin 128) (l : Fin 32) :
    (iblk0 V c 1 t : Vec Ideal S128x32 .f32) (ix2 k l) = (w1Arr V c) (ix2 k l) := by
  obtain ⟨e0, e1⟩ := index0_1 t
  show V c main_arg2 (((cfg0.win 1).blk t).view.emb (ix2 k l)) = V c main_arg2 (ix2 k l)
  refine congrArg (V c main_arg2) ?_
  funext a; apply Fin.ext
  match a with
  | ⟨0, _⟩ => show win0_1.index t (0 : Fin 2) * 128 + 1 * k.val = k.val; rw [e0]; omega
  | ⟨1, _⟩ => show win0_1.index t (1 : Fin 2) * 32 + 1 * l.val = l.val; rw [e1]; omega

/-- The joined weights' window holds the joined weights. -/
theorem iblk0_2_apply (c : Dev nD) (t : Fin cfg0.N) (l : Fin 32) (j : Fin 64) :
    (iblk0 V c 2 t : Vec Ideal S32x64 .f32) (ix2 l j) = (wcArr V c) (ix2 l j) := by
  obtain ⟨e0, e1⟩ := index0_2 t
  show V c main_v0 (((cfg0.win 2).blk t).view.emb (ix2 l j)) = V c main_v0 (ix2 l j)
  refine congrArg (V c main_v0) ?_
  funext a; apply Fin.ext
  match a with
  | ⟨0, _⟩ => show win0_2.index t (0 : Fin 2) * 32 + 1 * l.val = l.val; rw [e0]; omega
  | ⟨1, _⟩ => show win0_2.index t (1 : Fin 2) * 64 + 1 * j.val = j.val; rw [e1]; omega

/-- Row i of the adjacency's panel at point t is row 400 (t mod 25) + i of the adjacency. -/
theorem adjPanelRow_lt (t : Fin cfg0.N) (i : Fin 400) : 400 * (t.val % 25) + i.val < 10000 := by
  have hi : i.val < 400 := i.isLt
  have ht : t.val % 25 < 25 := Nat.mod_lt _ (by decide)
  omega

def adjPanelRow (t : Fin cfg0.N) (i : Fin 400) : Fin 10000 := ⟨400 * (t.val % 25) + i.val, adjPanelRow_lt t i⟩

theorem iblk0_3_apply (c : Dev nD) (t : Fin cfg0.N) (i : Fin 400) (k : Fin 10000) :
    (iblk0 V c 3 t : Vec Ideal S400x10000 .f32) (ix2 i k)
      = (adjArr V c) (ix2 (adjPanelRow t i) k) := by
  obtain ⟨e0, e1⟩ := index0_3 t
  show V c main_arg1 (((cfg0.win 3).blk t).view.emb (ix2 i k)) = V c main_arg1 (ix2 (adjPanelRow t i) k)
  refine congrArg (V c main_arg1) ?_
  funext a; apply Fin.ext
  match a with
  | ⟨0, _⟩ => show win0_3.index t (0 : Fin 2) * 400 + 1 * i.val = 400 * (t.val % 25) + i.val; rw [e0]; omega
  | ⟨1, _⟩ => show win0_3.index t (1 : Fin 2) * 10000 + 1 * k.val = k.val; rw [e1]; omega

/-! ## The projection, the hidden layer against the joined weights, the output -/

/-- P = X W1 at an entry. -/
theorem proj0_apply (c : Dev nD) (k : Fin 10000) (l : Fin 32) :
    proj0 (F := Ideal) V c (ix2 k l)
      = Cert.Vgae.projAt (featArr V c) (w1Arr V c) k l := by
  unfold proj0
  refine (pay1_apply _ _ k l).trans ?_
  unfold Cert.Vgae.projAt
  refine Finset.sum_congr rfl fun m _ => ?_
  exact congrArg₂ (· * ·) (iblk0_0_apply V c pt0 k m) (iblk0_1_apply V c pt0 m l)

/-- Panel t of max (A P) 0 · Wc at an entry: row i of the panel is the hidden layer's row 400 (t mod 25) + i. -/
theorem mixBlk_apply (c : Dev nD) (t : Fin cfg0.N) (i : Fin 400) (j : Fin 64) :
    mixBlk (F := Ideal) V c t (ix2 i j)
      = ∑ l : Fin 32, Cert.Vgae.hiddenAt (featArr V c) (adjArr V c)
          (w1Arr V c) (adjPanelRow t i) l * (wcArr V c) (ix2 l j) := by
  unfold mixBlk
  refine (pay2_apply _ _ _ i j).trans ?_
  refine Finset.sum_congr rfl fun l _ => ?_
  refine congrArg₂ (· * ·) ?_ (iblk0_2_apply V c t l j)
  unfold Cert.Vgae.hiddenAt
  refine congrArg (fun s => max s (0 : EReal)) ?_
  refine Finset.sum_congr rfl fun k _ => ?_
  exact congrArg₂ (· * ·) (iblk0_3_apply V c t i k) (proj0_apply V c k l)

/-- Row k of the whole array is row k mod 400 of panel k div 400, which is the hidden layer's row k. -/
theorem adjPanelRow_div_mod (k : Fin 10000) (h1 : k.val / 400 < cfg0.N) (h2 : k.val % 400 < 400) :
    adjPanelRow ⟨k.val / 400, h1⟩ ⟨k.val % 400, h2⟩ = k := by
  have hk : k.val < 10000 := k.isLt
  apply Fin.ext
  show 400 * (k.val / 400 % 25) + k.val % 400 = k.val
  omega

/-- max (A P) 0 · Wc whole, at an entry. -/
theorem mix_apply (c : Dev nD) (k : Fin 10000) (j : Fin 64) :
    mix (F := Ideal) V c (ix2 k j)
      = ∑ l : Fin 32, Cert.Vgae.hiddenAt (featArr V c) (adjArr V c)
          (w1Arr V c) k l * (wcArr V c) (ix2 l j) := by
  show mixBlk V c ⟨k.val / 400, row_div_lt (ix2 k j)⟩ (ix2 ⟨k.val % 400, row_mod_lt (ix2 k j)⟩ j) = _
  refine (mixBlk_apply V c _ _ j).trans ?_
  rw [adjPanelRow_div_mod k]

/-! ## The joined weights' two halves -/

section Halves

variable (hwc : ∀ c, V c main_v0 = (concatenate S32x64 1 [⟨S32x32, V c main_arg3⟩, ⟨S32x32, V c main_arg4⟩]
  Facts₀.concatenates_S32x32_S32x32_S32x64_d1 : Vec Ideal S32x64 .f32))
include hwc

/-- Column q < 32 of the joined weights is column q of the first. -/
theorem wc_lo (c : Dev nD) (l : Fin 32) (q : Fin 32) :
    (wcArr V c) (ix2 l (⟨q.val, by have := q.isLt; omega⟩ : Fin 64))
      = (w2Arr V c) (ix2 l q) := by
  have hq : q.val < 32 := q.isLt
  refine (congrFun (hwc c) _).trans ?_
  refine (concat_apply _ _ l _).trans ?_
  exact dif_pos hq

/-- Column 32 + q of the joined weights is column q of the second. -/
theorem wc_hi (c : Dev nD) (l : Fin 32) (q : Fin 32) :
    (wcArr V c) (ix2 l (⟨32 + q.val, by have := q.isLt; omega⟩ : Fin 64))
      = (w3Arr V c) (ix2 l q) := by
  have hq : q.val < 32 := q.isLt
  refine (congrFun (hwc c) _).trans ?_
  refine (concat_apply _ _ l _).trans ?_
  refine (dif_neg (show ¬ (32 + q.val < 32) by omega)).trans ?_
  refine congrArg (fun r : Fin 32 => (w3Arr V c) (ix2 l r)) ?_
  apply Fin.ext
  show 32 + q.val - 32 = q.val
  omega

/-- Column q of max (A P) 0 · Wc is H W2. -/
theorem mix_lo (c : Dev nD) (k : Fin 10000) (q : Fin 32) :
    mix (F := Ideal) V c (ix2 k (⟨q.val, by have := q.isLt; omega⟩ : Fin 64))
      = Cert.Vgae.mixAt (featArr V c) (adjArr V c)
          (w1Arr V c) (w2Arr V c) k q := by
  refine (mix_apply V c k _).trans ?_
  unfold Cert.Vgae.mixAt
  refine Finset.sum_congr rfl fun l _ => ?_
  exact congrArg (_ * ·) (wc_lo V hwc c l q)

/-- Column 32 + q of max (A P) 0 · Wc is H W3. -/
theorem mix_hi (c : Dev nD) (k : Fin 10000) (q : Fin 32) :
    mix (F := Ideal) V c (ix2 k (⟨32 + q.val, by have := q.isLt; omega⟩ : Fin 64))
      = Cert.Vgae.mixAt (featArr V c) (adjArr V c)
          (w1Arr V c) (w3Arr V c) k q := by
  refine (mix_apply V c k _).trans ?_
  unfold Cert.Vgae.mixAt
  refine Finset.sum_congr rfl fun l _ => ?_
  exact congrArg (_ * ·) (wc_hi V hwc c l q)

end Halves

/-! ## The output array -/

/-- Row r of the output is stored at point 25 + r div 400, whose panel of the adjacency is panel r div 400: its row
    r mod 400 is the adjacency's row r. -/
theorem adjPanelRow_out (r : Fin 10000) (h1 : 25 + r.val / 400 < cfg0.N) (h2 : r.val % 400 < 400) :
    adjPanelRow ⟨25 + r.val / 400, h1⟩ ⟨r.val % 400, h2⟩ = r := by
  have hr : r.val < 10000 := r.isLt
  apply Fin.ext
  show 400 * ((25 + r.val / 400) % 25) + r.val % 400 = r.val
  omega

/-- The output at an entry: the adjacency's row against a column of max (A P) 0 · Wc. -/
theorem muvarArr_apply (c : Dev nD) (r : Fin 10000) (j : Fin 64) :
    muvarArr (F := Ideal) V c (ix2 r j)
      = ∑ k : Fin 10000, (adjArr V c) (ix2 r k) * mix (F := Ideal) V c (ix2 k j) := by
  show k0_pay3 (iblk0 V c 3 ⟨25 + r.val / 400, out_div_lt (ix2 r j)⟩) (mix V c)
    (ix2 ⟨r.val % 400, row_mod_lt (ix2 r j)⟩ j) = _
  refine (pay3_apply _ _ _ j).trans ?_
  refine Finset.sum_congr rfl fun k _ => ?_
  refine congrArg (· * _) ?_
  refine (iblk0_3_apply V c _ _ k).trans ?_
  rw [adjPanelRow_out r]

/-- The output's left half is the mean layer A (H W2). -/
theorem muvar_lo (hwc : ∀ c, V c main_v0 = (concatenate S32x64 1 [⟨S32x32, V c main_arg3⟩, ⟨S32x32, V c main_arg4⟩]
      Facts₀.concatenates_S32x32_S32x32_S32x64_d1 : Vec Ideal S32x64 .f32))
    (c : Dev nD) (p : Fin 10000) (q : Fin 32) :
    muvarArr (F := Ideal) V c (ValueIdx.ix2 p (⟨q.val, by have := q.isLt; omega⟩ : Fin 64))
      = Cert.Vgae.layerAt (V c main_arg0) (V c main_arg1) (V c main_arg2) (V c main_arg3) p q := by
  refine (muvarArr_apply V c p _).trans ?_
  unfold Cert.Vgae.layerAt
  refine Finset.sum_congr rfl fun k _ => ?_
  exact congrArg (_ * ·) (mix_lo V hwc c k q)

/-- The output's right half is the log-variance layer A (H W3). -/
theorem muvar_hi (hwc : ∀ c, V c main_v0 = (concatenate S32x64 1 [⟨S32x32, V c main_arg3⟩, ⟨S32x32, V c main_arg4⟩]
      Facts₀.concatenates_S32x32_S32x32_S32x64_d1 : Vec Ideal S32x64 .f32))
    (c : Dev nD) (p : Fin 10000) (q : Fin 32) :
    muvarArr (F := Ideal) V c (ValueIdx.ix2 p (⟨32 + q.val, by have := q.isLt; omega⟩ : Fin 64))
      = Cert.Vgae.layerAt (V c main_arg0) (V c main_arg1) (V c main_arg2) (V c main_arg4) p q := by
  refine (muvarArr_apply V c p _).trans ?_
  unfold Cert.Vgae.layerAt
  refine Finset.sum_congr rfl fun k _ => ?_
  exact congrArg (_ * ·) (mix_hi V hwc c k q)

end Cert.KernelIdeal.Hand

end
-- ==== Proof.Value1.lean ====
/-
  The second kernel's output, entry by entry, over the extended reals.

  The second kernel stages two windows on ONE array M : [10000, 32]. The first is a panel of 400 rows: at
  grid point t its block index is (t, 0), so row i of the staged block is row 400 t + i of M. The second is
  all of M: its block index is (0, 0) at every point, and the staged block is M itself. The body stores the
  panel times the whole factor transposed, both contracted along their columns, so the stored panel's entry
  (i, q) is ∑ l, M (400 t + i, l) * M (q, l). The output's row p is row p mod 400 of the panel stored at
  point p div 400, and 400 (p div 400) + p mod 400 = p: the output's entry (p, q) is ∑ l, M (p, l) * M (q, l),
  the Gram matrix of M's rows, whatever M holds when the kernel is entered.
-/
import proofs.«161115_g32409823216073_cont_9to1_1175_24_alg».proof.Proof.Data
import proofs.«161115_g32409823216073_cont_9to1_1175_24_alg».proof.Proof.Final
import proofs.«161115_g32409823216073_cont_9to1_1175_24_alg».proof.Proof.PayVal
import proofs.«161115_g32409823216073_cont_9to1_1175_24_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

local notation "𝕄" => MT nD τ sig Unit (Elt Ideal) ℕ (UR sig nD τ) ℕ

-- the TensorCore's buffer contents when a region is entered
variable (V : (c : Dev nD) → (b : Ref sig .tc) → Buf (Elt Ideal) ((c : Thread nD τ).loc b))

/-! ## The two input windows read at an entry -/

/-- The array both input windows are on, as the kernel finds it: M : [10000, 32]. -/
abbrev gramIn (c : Dev nD) : Vec Ideal S10000x32 .f32 := V c main_v2

/-- The panel window's block index at point t: t along the rows, 0 along the columns. -/
theorem index1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The whole-array window's block index is (0, 0) at every point. -/
theorem index1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- Row i of panel t is a row of the array: 400 t + i < 10000 for t < 25 and i < 400. -/
theorem panel_row_lt (t : Fin cfg1.N) (i : Fin 400) : 400 * t.val + i.val < 10000 := by
  have hN : t.val < 25 := lt_of_lt_of_eq t.isLt N_1
  have hi : i.val < 400 := i.isLt
  omega

/-- Row i of the panel staged at point t is row 400 t + i of the array: the block's row coordinate is
    (block index) × 400 + i with block index t, its column coordinate 0 × 32 + l. -/
theorem panel_at (c : Dev nD) (t : Fin cfg1.N) (i : Fin 400) (l : Fin 32) :
    iblk1 V c 0 t (ix2 i l) = gramIn V c (ix2 ⟨400 * t.val + i.val, panel_row_lt t i⟩ l) := by
  obtain ⟨e0, e1⟩ := index1_0 t
  unfold iblk1
  rw [View.read_apply]
  show gramIn V c (((cfg1.win 0).blk t).view.emb (ix2 i l)) = _
  refine congrArg (gramIn V c) ?_
  funext a
  apply Fin.ext
  match a with
  | ⟨0, _⟩ =>
    show win1_0.index t (0 : Fin 2) * 400 + 1 * i.val = 400 * t.val + i.val
    rw [e0]; omega
  | ⟨1, _⟩ =>
    show win1_0.index t (1 : Fin 2) * 32 + 1 * l.val = l.val
    rw [e1]; omega

/-- The whole-array window's block is the array: both block indices are 0. -/
theorem whole_at (c : Dev nD) (t : Fin cfg1.N) (k : Fin 10000) (l : Fin 32) :
    iblk1 V c 1 t (ix2 k l) = gramIn V c (ix2 k l) := by
  obtain ⟨e0, e1⟩ := index1_1 t
  unfold iblk1
  rw [View.read_apply]
  show gramIn V c (((cfg1.win 1).blk t).view.emb (ix2 k l)) = _
  refine congrArg (gramIn V c) ?_
  funext a
  apply Fin.ext
  match a with
  | ⟨0, _⟩ =>
    show win1_1.index t (0 : Fin 2) * 10000 + 1 * k.val = k.val
    rw [e0]; omega
  | ⟨1, _⟩ =>
    show win1_1.index t (1 : Fin 2) * 32 + 1 * l.val = l.val
    rw [e1]; omega

/-! ## The stored panel and the output array -/

/-- The panel stored at point t, at (i, q): row 400 t + i of the array against its row q. -/
theorem gram_panel_at (c : Dev nD) (t : Fin cfg1.N) (i : Fin 400) (q : Fin 10000) :
    k1_pay1 (F := Ideal) (iblk1 V c 0 t) (iblk1 V c 1 t) (ix2 i q)
      = ∑ l : Fin 32, gramIn V c (ix2 ⟨400 * t.val + i.val, panel_row_lt t i⟩ l) * gramIn V c (ix2 q l) := by
  refine (PayVal.gram_apply _ _ i q).trans ?_
  refine Finset.sum_congr rfl fun l _ => ?_
  exact congrArg₂ (· * ·) (panel_at V c t i l) (whole_at V c t q l)

/-- The second kernel's output is the Gram matrix of its input array's rows: row p lies in the panel of
    point p div 400 at row p mod 400, and 400 (p div 400) + p mod 400 = p. -/
theorem recon_at (c : Dev nD) (p q : Fin 10000) :
    reconArr (F := Ideal) V c (ix2 p q) = ∑ l : Fin 32, gramIn V c (ix2 p l) * gramIn V c (ix2 q l) := by
  have hp : p.val < 10000 := p.isLt
  have hrow : (⟨400 * (p.val / 400) + p.val % 400,
      panel_row_lt ⟨p.val / 400, gram_div_lt (ix2 p q)⟩ ⟨p.val % 400, gram_mod_lt (ix2 p q)⟩⟩ : Fin 10000) = p :=
    Fin.ext (by show 400 * (p.val / 400) + p.val % 400 = p.val; omega)
  show k1_pay1 (F := Ideal) (iblk1 V c 0 ⟨p.val / 400, gram_div_lt (ix2 p q)⟩) (iblk1 V c 1 ⟨p.val / 400, gram_div_lt (ix2 p q)⟩)
    (ix2 ⟨p.val % 400, gram_mod_lt (ix2 p q)⟩ q) = _
  refine (gram_panel_at V c ⟨p.val / 400, gram_div_lt (ix2 p q)⟩ ⟨p.val % 400, gram_mod_lt (ix2 p q)⟩ q).trans ?_
  refine Finset.sum_congr rfl fun l _ => ?_
  exact congrArg (fun r : Fin 10000 => gramIn V c (ix2 r l) * gramIn V c (ix2 q l)) hrow

/-- The same with the input array named: if the array the kernel finds is M, the output's entry (p, q) is
    the inner product of rows p and q of M. -/
theorem recon_at_of (c : Dev nD) (M : Vec Ideal S10000x32 .f32) (hM : gramIn V c = M) (p q : Fin 10000) :
    reconArr (F := Ideal) V c (ix2 p q) = ∑ l : Fin 32, M (ix2 p l) * M (ix2 q l) := by
  subst hM
  exact recon_at V c p q

end Cert.KernelIdeal.Hand

end
-- ==== Proof.Assemble.lean ====
/-
  The idealized kernel's three results, entry by entry over the extended reals.

  The joined weights are W2 and W3 side by side, so column j of H [W2|W3] is column j of H W2 for j < 32 and column
  j - 32 of H W3 otherwise: the same sum over the 32 hidden coordinates, term by term. The first kernel's output is
  A times that array, hence the means A (H W2) in its left half and the log-variances A (H W3) in its right half,
  which are exactly the two slices the host takes. The second kernel's output is the Gram matrix of the means:
  entry (p, q) is the inner product of rows p and q. No law beyond re-indexing a sum is used, so nothing here needs
  the inputs to be finite.
-/
import proofs.«161115_g32409823216073_cont_9to1_1175_24_alg».proof.Proof.RunAll
import proofs.«161115_g32409823216073_cont_9to1_1175_24_alg».proof.Proof.Final
import proofs.«161115_g32409823216073_cont_9to1_1175_24_alg».proof.Proof.PayVal
import proofs.«161115_g32409823216073_cont_9to1_1175_24_alg».proof.Proof.Value0
import proofs.«161115_g32409823216073_cont_9to1_1175_24_alg».proof.Proof.Value1
import proofs.«161115_g32409823216073_cont_9to1_1175_24_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.PayVal Idealize.ShloMosaic.ValueIdx

variable (m : (ℓ : Loc nD τ sig) → Buf (Elt Ideal) ℓ) (ρ : Dev nD → PrngReg)

/-! ## What the host lines leave -/

/-- No host line before the first kernel writes an argument. -/
theorem E1_arg0 (c : Dev nD) : E1 m c main_arg0 = m ((c : Thread nD τ).loc main_arg0) := Gen.V1_of m c main_arg0 (by decide)
theorem E1_arg1 (c : Dev nD) : E1 m c main_arg1 = m ((c : Thread nD τ).loc main_arg1) := Gen.V1_of m c main_arg1 (by decide)
theorem E1_arg2 (c : Dev nD) : E1 m c main_arg2 = m ((c : Thread nD τ).loc main_arg2) := Gen.V1_of m c main_arg2 (by decide)
theorem E1_arg3 (c : Dev nD) : E1 m c main_arg3 = m ((c : Thread nD τ).loc main_arg3) := Gen.V1_of m c main_arg3 (by decide)
theorem E1_arg4 (c : Dev nD) : E1 m c main_arg4 = m ((c : Thread nD τ).loc main_arg4) := Gen.V1_of m c main_arg4 (by decide)

/-- The joined weights are the two weight arguments side by side. -/
theorem E1_v0 (c : Dev nD) : E1 m c main_v0 = (concatenate S32x64 1 [⟨S32x32, E1 m c main_arg3⟩, ⟨S32x32, E1 m c main_arg4⟩] Facts₀.concatenates_S32x32_S32x32_S32x64_d1 : Vec Ideal S32x64 .f32) := by
  rw [E1_arg3, E1_arg4]
  show StableHlo.after hostOps0 (fun b => m (c, b)) (Proc.devRef .tc main_v0) = _
  after_results

/-- The first kernel's output array is its two layers side by side. -/
theorem out2_eq (c : Dev nD) : out2 m c = muvarArr (E1 m) c := final0 (E1 m) c

/-- The means are the first kernel's output's left half; the log-variances its right half. -/
theorem E3_v2 (c : Dev nD) : E3 m c main_v2 = (extractStridedSlice S10000x32 ![0, 0] (out2 m c) Facts₀.slices_S10000x64_S10000x32_0_0 : Vec Ideal S10000x32 .f32) := by
  show StableHlo.after hostOps1 (X2 m c) (Proc.devRef .tc main_v2) = _
  after_results
  show extractStridedSlice S10000x32 ![0, 0] (Function.update (Gen.V1 m c) (Proc.devRef .tc main_v1) (out2 m c) (Proc.devRef .tc main_v1)) _ = _
  rw [Function.update_self]
theorem E3_v3 (c : Dev nD) : E3 m c main_v3 = (extractStridedSlice S10000x32 ![0, 32] (out2 m c) Facts₀.slices_S10000x64_S10000x32_0_32 : Vec Ideal S10000x32 .f32) := by
  show StableHlo.after hostOps1 (X2 m c) (Proc.devRef .tc main_v3) = _
  after_results
  show extractStridedSlice S10000x32 ![0, 32] (Function.update (Gen.V1 m c) (Proc.devRef .tc main_v1) (out2 m c) (Proc.devRef .tc main_v1)) _ = _
  rw [Function.update_self]

/-! ## The three results at the specification -/

abbrev xA (c : Dev nD) := m ((c : Thread nD τ).loc main_arg0)
abbrev adjA (c : Dev nD) := m ((c : Thread nD τ).loc main_arg1)
abbrev w1A (c : Dev nD) := m ((c : Thread nD τ).loc main_arg2)
abbrev w2A (c : Dev nD) := m ((c : Thread nD τ).loc main_arg3)
abbrev w3A (c : Dev nD) := m ((c : Thread nD τ).loc main_arg4)

theorem mean_eq (c : Dev nD) : E3 m c main_v2 = Cert.Vgae.layer (xA m c) (adjA m c) (w1A m c) (w2A m c) := by
  rw [E3_v2]
  funext j
  obtain ⟨p, q, rfl⟩ : ∃ (p : Fin 10000) (q : Fin 32), j = ix2 p q := ⟨j 0, j 1, eq_ix2 j⟩
  rw [slice_lo_apply, out2_eq, muvar_lo (E1 m) (E1_v0 m) c p q, E1_arg0, E1_arg1, E1_arg2, E1_arg3]
  rfl

theorem logvar_eq (c : Dev nD) : E3 m c main_v3 = Cert.Vgae.layer (xA m c) (adjA m c) (w1A m c) (w3A m c) := by
  rw [E3_v3]
  funext j
  obtain ⟨p, q, rfl⟩ : ∃ (p : Fin 10000) (q : Fin 32), j = ix2 p q := ⟨j 0, j 1, eq_ix2 j⟩
  rw [slice_hi_apply, out2_eq, muvar_hi (E1 m) (E1_v0 m) c p q, E1_arg0, E1_arg1, E1_arg2, E1_arg4]
  rfl

theorem recon_eq (c : Dev nD) : out4 m c = Cert.Vgae.recon (xA m c) (adjA m c) (w1A m c) (w2A m c) := by
  refine (final1 (E3 m) c).trans ?_
  funext j
  obtain ⟨p, q, rfl⟩ : ∃ (p q : Fin 10000), j = ix2 p q := ⟨j 0, j 1, eq_ix2 j⟩
  rw [recon_at_of (E3 m) c (Cert.Vgae.layer (xA m c) (adjA m c) (w1A m c) (w2A m c)) (mean_eq m c) p q]
  rfl

/-! ## The kernel's run at the specification -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem V4_v2' (c : Dev nD) : Gen.V4 m (outs m) c main_v2 = E3 m c main_v2 := V4_v2 m c
theorem V4_v3' (c : Dev nD) : Gen.V4 m (outs m) c main_v3 = E3 m c main_v3 :=
  (Gen.V4_of m (outs m) c main_v3 (by decide)).trans (congrFun (V3_eq m c) _)
theorem V4_v4' (c : Dev nD) : Gen.V4 m (outs m) c main_v4 = out4 m c := V4_v4 m c

/-- From any memory the idealized kernel runs to the end with the decoder's array, the means and the log-variances at
    the specification of its own arguments, and the arguments as launched. -/
theorem kernel_run : θ_run (defs (F := Ideal)) (onTc (τ := τ) (main (F := Ideal))) ⟨m, fun _ => 0, ρ⟩ (fun r => ∀ c : Dev nD,
      r.2.mem ((c.tc : Thread nD τ).loc main_v4) = Cert.Vgae.recon (xA m c) (adjA m c) (w1A m c) (w2A m c)
      ∧ r.2.mem ((c.tc : Thread nD τ).loc main_v2) = Cert.Vgae.layer (xA m c) (adjA m c) (w1A m c) (w2A m c)
      ∧ r.2.mem ((c.tc : Thread nD τ).loc main_v3) = Cert.Vgae.layer (xA m c) (adjA m c) (w1A m c) (w3A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans ((V4_v4' m c).trans (recon_eq m c)),
     (h c _ (mem_uc main_v2 (by decide))).trans ((V4_v2' m c).trans (mean_eq m c)),
     (h c _ (mem_uc main_v3 (by decide))).trans ((V4_v3' m c).trans (logvar_eq m c)),
     (h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c)⟩) (run_all m ρ)

end Cert.KernelIdeal.Hand

end
-- ==== Proof.RefValue.lean ====
/-
  The reference program ends with its three results at the specification of its own arguments.

  The program is nine operations on X : [10000,128], A : [10000,10000], W1 : [128,32], W2, W3 : [32,32].
  Read at an entry (p, q), stage by stage:
    X W1                        is  projAt p q                        (a sum over 128 columns of X);
    A (X W1)                    is  the sum over k of A(p,k) * projAt k q;
    its maximum with zero       is  hiddenAt p q                      (the zero word is the real 0);
    H W, for W = W2 and W = W3  is  mixAt p q                         (a sum over the 32 hidden columns);
    A (H W)                     is  layerAt p q                       (the mean for W2, the log-variance for W3);
    the transposed mean at (l, q) is the mean at (q, l);
    the mean times its transpose is  reconAt p q                      (the inner product of rows p and q of the mean).
  Every product is a plain [M,K] x [K,N] one: its entry (p, q) is the sum over the one contracted coordinate k
  of left(p,k) * right(k,q), and under that sum the operand computed before is replaced by its own reading.
  An array is then the specification's because it is so at every entry (p, q).
-/
import proofs.«161115_g32409823216073_cont_9to1_1175_24_alg».proof.Proof.Gen.ReferenceIdeal.Run
import proofs.«161115_g32409823216073_cont_9to1_1175_24_alg».proof.Proof.Gen.ReferenceIdeal.Read
import proofs.«161115_g32409823216073_cont_9to1_1175_24_alg».proof.Proof.Spec
import proofs.«161115_g32409823216073_cont_9to1_1175_24_alg».proof.Proof.LibPlainDot

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x : FVec Ideal Cert.Vgae.SX .f32) (adj : FVec Ideal Cert.Vgae.SA .f32) (w1 : FVec Ideal Cert.Vgae.SW1 .f32)
  (w : FVec Ideal Cert.Vgae.SW .f32)

/-! ## The stages, each at an entry -/

/-- X W1 at (p, q): the sum over the 128 columns of row p of X against column q of W1. -/
theorem proj_at (p : Fin 10000) (q : Fin 32) :
    val_main_v0 (F := Ideal) x w1 (ix2 p q) = Cert.Vgae.projAt x w1 p q :=
  Cert.PlainDot.dotGeneral_apply _ rfl none x w1 p q

/-- A (X W1) at (p, q): row p of A against column q of the projection. -/
theorem agg_at (p : Fin 10000) (q : Fin 32) :
    val_main_v1 (F := Ideal) x adj w1 (ix2 p q) = ∑ k : Fin 10000, adj (ix2 p k) * Cert.Vgae.projAt x w1 k q := by
  refine (Cert.PlainDot.dotGeneral_apply _ rfl none adj (val_main_v0 (F := Ideal) x w1) p q).trans ?_
  exact Finset.sum_congr rfl fun k _ => by rw [proj_at]

/-- The hidden layer at (p, q): the aggregate's maximum with the broadcast zero, and the zero word is the real 0. -/
theorem hidden_at (p : Fin 10000) (q : Fin 32) :
    val_main_v2 (F := Ideal) x adj w1 (ix2 p q) = Cert.Vgae.hiddenAt x adj w1 p q := by
  rw [val_main_v2_apply, agg_at, val_main_call0_v0_apply, val_main_call0_cst_apply, Ideal.maximumf_def, Ideal.ofBits_def,
    Ideal.ofBits_zero_f32]
  rfl

/-- H W2 at (p, q): row p of the hidden layer against column q of the weight. -/
theorem mix_at (p : Fin 10000) (q : Fin 32) :
    val_main_v3 (F := Ideal) x adj w1 w (ix2 p q) = Cert.Vgae.mixAt x adj w1 w p q := by
  refine (Cert.PlainDot.dotGeneral_apply _ rfl none (val_main_v2 (F := Ideal) x adj w1) w p q).trans ?_
  exact Finset.sum_congr rfl fun l _ => by rw [hidden_at]

/-- H W3 at (p, q): the same product against the other weight. -/
theorem mix_at' (p : Fin 10000) (q : Fin 32) :
    val_main_v5 (F := Ideal) x adj w1 w (ix2 p q) = Cert.Vgae.mixAt x adj w1 w p q := by
  refine (Cert.PlainDot.dotGeneral_apply _ rfl none (val_main_v2 (F := Ideal) x adj w1) w p q).trans ?_
  exact Finset.sum_congr rfl fun l _ => by rw [hidden_at]

/-- The mean A (H W2) at (p, q). -/
theorem mean_at (p : Fin 10000) (q : Fin 32) :
    val_main_v4 (F := Ideal) x adj w1 w (ix2 p q) = Cert.Vgae.layerAt x adj w1 w p q := by
  refine (Cert.PlainDot.dotGeneral_apply _ rfl none adj (val_main_v3 (F := Ideal) x adj w1 w) p q).trans ?_
  exact Finset.sum_congr rfl fun k _ => by rw [mix_at]

/-- The log-variance A (H W3) at (p, q). -/
theorem logvar_at (p : Fin 10000) (q : Fin 32) :
    val_main_v6 (F := Ideal) x adj w1 w (ix2 p q) = Cert.Vgae.layerAt x adj w1 w p q := by
  refine (Cert.PlainDot.dotGeneral_apply _ rfl none adj (val_main_v5 (F := Ideal) x adj w1 w) p q).trans ?_
  exact Finset.sum_congr rfl fun k _ => by rw [mix_at']

/-- The transposed mean at (l, q) is the mean at (q, l). -/
theorem meanT_at (l : Fin 32) (q : Fin 10000) :
    val_main_v7 (F := Ideal) x adj w1 w (ix2 l q) = Cert.Vgae.layerAt x adj w1 w q l := by
  have e : idx_main_v7 (ix2 l q) = ix2 q l :=
    funext fun a => Fin.ext (by match a with | ⟨0, _⟩ => rfl | ⟨1, _⟩ => rfl)
  rw [val_main_v7_apply, e, mean_at]

/-- The decoder at (p, q): row p of the mean against column q of its transpose, that is against row q of the mean. -/
theorem recon_at (p q : Fin 10000) :
    val_main_v8 (F := Ideal) x adj w1 w (ix2 p q) = Cert.Vgae.reconAt x adj w1 w p q := by
  refine (Cert.PlainDot.dotGeneral_apply _ rfl none (val_main_v4 (F := Ideal) x adj w1 w)
    (val_main_v7 (F := Ideal) x adj w1 w) p q).trans ?_
  exact Finset.sum_congr rfl fun l _ => by rw [mean_at, meanT_at]

/-! ## The three result arrays -/

/-- The mean, as an array. -/
theorem mean_eq : val_main_v4 (F := Ideal) x adj w1 w = Cert.Vgae.layer x adj w1 w := by
  funext j
  obtain ⟨p, q, rfl⟩ : ∃ (p : Fin 10000) (q : Fin 32), j = ix2 p q := ⟨j 0, j 1, eq_ix2 j⟩
  exact mean_at x adj w1 w p q

/-- The log-variance, as an array. -/
theorem logvar_eq : val_main_v6 (F := Ideal) x adj w1 w = Cert.Vgae.layer x adj w1 w := by
  funext j
  obtain ⟨p, q, rfl⟩ : ∃ (p : Fin 10000) (q : Fin 32), j = ix2 p q := ⟨j 0, j 1, eq_ix2 j⟩
  exact logvar_at x adj w1 w p q

/-- The decoder, as an array. -/
theorem recon_eq : val_main_v8 (F := Ideal) x adj w1 w = Cert.Vgae.recon x adj w1 w := by
  funext j
  obtain ⟨p, q, rfl⟩ : ∃ (p q : Fin 10000), j = ix2 p q := ⟨j 0, j 1, eq_ix2 j⟩
  exact recon_at x adj w1 w p q

/-! ## The run -/

/-- From any memory with zero counters every weakly fair execution of the reference terminates with the decoder, the
    mean and the log-variance at the specification of the arguments' launch contents, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = Cert.Vgae.recon (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Cert.Vgae.layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = Cert.Vgae.layer (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => by
    obtain ⟨h8, h4, h6, hargs⟩ := h c
    exact ⟨h8.trans ((val_main_v8_eq _ _ _ _).trans (recon_eq _ _ _ _)),
      h4.trans ((val_main_v4_eq _ _ _ _).trans (mean_eq _ _ _ _)),
      h6.trans ((val_main_v6_eq _ _ _ _).trans (logvar_eq _ _ _ _)), hargs⟩)
    (Cert.ReferenceIdeal.Value.run (F := Ideal) m ρ)

end Cert.ReferenceIdeal.RefValue

end
-- ==== Proof.lean ====
/-
  A three-layer graph autoencoder as two Pallas kernels against its jnp reference, over the extended reals.

  With X : [10000,128], A : [10000,10000], W1 : [128,32], W2, W3 : [32,32] the reference computes
    H = max (A (X W1)) 0,   mu = A (H W2),   logvar = A (H W3),   recon = mu muᵀ.
  The kernel joins the weights into [W2|W3], computes A (H [W2|W3]) in one pass over A (panel by panel, H [W2|W3]
  kept in a scratch), slices the result into mu and logvar, and computes recon panel by panel. Column j of
  H [W2|W3] is a column of H W2 or of H W3 — the same sum over the hidden coordinates — so the two programs'
  results are the same nested sums entry by entry; nothing is re-associated, and the inputs' finiteness is not used.
  Both programs are shown to run to the end from any memory with their arguments unchanged (the frames), the
  idealization rewrote no operation (preserves is trivial), and the idealized kernel's and the reference's runs
  both end at one specification of the arguments (algebraic).
-/
import proofs.«161115_g32409823216073_cont_9to1_1175_24_alg».proof.Defs
import proofs.«161115_g32409823216073_cont_9to1_1175_24_alg».proof.Proof.Gen.Kernel
import proofs.«161115_g32409823216073_cont_9to1_1175_24_alg».proof.Proof.Gen.KernelIdeal
import proofs.«161115_g32409823216073_cont_9to1_1175_24_alg».proof.Proof.Gen.ReferenceIdeal
import proofs.«161115_g32409823216073_cont_9to1_1175_24_alg».proof.Proof.Gen.Pre_finite_inputs
import proofs.«161115_g32409823216073_cont_9to1_1175_24_alg».proof.Proof.Bits.Run
import proofs.«161115_g32409823216073_cont_9to1_1175_24_alg».proof.Proof.Assemble
import proofs.«161115_g32409823216073_cont_9to1_1175_24_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference's frame is its run with the results dropped. -/
theorem frame_r : Cert.frame_ReferenceIdeal := fun m ρ _ =>
  (θ_run Cert.ReferenceIdeal.defs _ _).mono (fun _ h c => (h c).2.2.2) (Cert.ReferenceIdeal.RefValue.run_spec m ρ)

/-- From memories that agree on the arguments both programs end with the decoder's array, the means and the
    log-variances at one specification of those arguments. -/
theorem algebraic : Cert.algebraic_KernelIdeal_ReferenceIdeal := by
  intro m ρ m' ρ' _ hagree
  refine ⟨fun c => Cert.Vgae.recon (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Vgae.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Vgae.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    Cert.KernelIdeal.Hand.kernel_run m ρ, ?_⟩
  refine (θ_run Cert.ReferenceIdeal.defs _ _).mono (fun r h c => ?_) (Cert.ReferenceIdeal.RefValue.run_spec m' ρ')
  obtain ⟨h8, h4, h6, hargs⟩ := h c
  obtain ⟨e0, e1, e2, e3, e4⟩ := hagree c
  refine ⟨h8.trans ?_, h4.trans ?_, h6.trans ?_, hargs⟩
  · rw [e0, e1, e2, e3]
  · rw [e0, e1, e2, e3]
  · rw [e0, e1, e2, e4]

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
